-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1x2048 : Shape := ⟨2, ![1, 2048]⟩
abbrev S1 : Shape := ⟨1, ![1]⟩
abbrev S2048x64x64 : Shape := ⟨3, ![2048, 64, 64]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S2048x64x64 : S_.BroadcastsInDim S2048x64x64 (![] : Fin 0 → Fin S2048x64x64.rank)
  reducesTo_S2048x64x64_S_d0_1_2 : S2048x64x64.ReducesTo [0, 1, 2] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : IVec S2048 32) (main_v13 : IVec S_ 1) (main_v16 : IVec S2048x64x64 1) : IVec S_ 1 :=
  let main_c_5 : IVec S_ 1 := constantI S_ 1 1#1
  let main_v17 : IVec S_ 1 := (fun x v => Host.reduce IntOp.andi x v reducesTo_S2048x64x64_S_d0_1_2 h_S_) main_v16 main_c_5
  let main_v18 : IVec S_ 1 := andi main_v13 main_v17
  let main_c_6 : IVec S_ 32 := constantI S_ 32 4294967232#32
  let main_v19 : IVec S2048 32 := broadcastInDim S2048 ![] bcast_S_S2048 main_c_6
  let main_v20 : IVec S2048 1 := cmpi .sge main_arg4 main_v19
  let main_c_7 : IVec S_ 1 := constantI S_ 1 1#1
  let main_v21 : IVec S_ 1 := (fun x v => Host.reduce IntOp.andi x v reducesTo_S2048_S_d0 h_S_) main_v20 main_c_7
  let main_v22 : IVec S_ 1 := andi main_v18 main_v21
  let main_c_8 : IVec S_ 32 := constantI S_ 32 64#32
  let main_v23 : IVec S2048 32 := broadcastInDim S2048 ![] bcast_S_S2048 main_c_8
  let main_v24 : IVec S2048 1 := cmpi .slt main_arg4 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v22 main_v25
  main_v26

def fn {F : FTy → Type} [FloatOps F] (main_arg0 : FVec F S4096x2048 .f32) (main_arg1 : FVec F S1x2048 .f32) (main_arg2 : FVec F S1 .f32) (main_arg3 : FVec F S2048x64x64 .f32) (main_arg4 : IVec S2048 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S2048x64x64 .f32 := Host.absf main_arg3
  let main_cst_4 : FVec F S_ .f32 := constant S_ .f32 0x7F800000#32
  let main_v15 : FVec F S2048x64x64 .f32 := broadcastInDim S2048x64x64 ![] bcast_S_S2048x64x64 main_cst_4
  let main_v16 : IVec S2048x64x64 1 := cmpf .olt main_v14 main_v15
  fn_part1 (F := F) main_arg4 main_v13 main_v16
-- ==== Kernel.lean ====
abbrev S4096x2048 : Shape := ⟨2, ![4096, 2048]⟩
abbrev S1x2048 : Shape := ⟨2, ![1, 2048]⟩
abbrev S1 : Shape := ⟨1, ![1]⟩
abbrev S2048x64x64 : Shape := ⟨3, ![2048, 64, 64]⟩
abbrev S2048 : Shape := ⟨1, ![2048]⟩
abbrev S2048x1x1 : Shape := ⟨3, ![2048, 1, 1]⟩
abbrev S2048x1x64 : Shape := ⟨3, ![2048, 1, 64]⟩
abbrev S_ : Shape := ⟨0, ![]⟩
abbrev S2048x1x64x1 : Shape := ⟨4, ![2048, 1, 64, 1]⟩
abbrev S1x1x1x1 : Shape := ⟨4, ![1, 1, 1, 1]⟩
abbrev S2048x64 : Shape := ⟨2, ![2048, 64]⟩
abbrev S64x2048 : Shape := ⟨2, ![64, 2048]⟩
abbrev S16x128 : Shape := ⟨2, ![16, 128]⟩
abbrev S4096x1 : Shape := ⟨2, ![4096, 1]⟩
abbrev S512x2048 : Shape := ⟨2, ![512, 2048]⟩
abbrev S8x128 : Shape := ⟨2, ![8, 128]⟩
abbrev S512x1 : Shape := ⟨2, ![512, 1]⟩
abbrev S1x1 : Shape := ⟨2, ![1, 1]⟩
abbrev S512x64 : Shape := ⟨2, ![512, 64]⟩
abbrev S1x512x64 : Shape := ⟨3, ![1, 512, 64]⟩
abbrev S1x1x1 : Shape := ⟨3, ![1, 1, 1]⟩
abbrev S1x1x2048 : Shape := ⟨3, ![1, 1, 2048]⟩

abbrev nBuf : Space → Nat
  | .hbm => 40
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1, .f32⟩
  | .hbm, ⟨3, _⟩ => ⟨S2048x64x64, .f32⟩
  | .hbm, ⟨4, _⟩ => ⟨S2048, .i32⟩
  | .hbm, ⟨5, _⟩ => ⟨S2048x1x1, .i32⟩
  | .hbm, ⟨6, _⟩ => ⟨S2048x1x64, .i32⟩
  | .hbm, ⟨7, _⟩ => ⟨S_, .i32⟩
  | .hbm, ⟨8, _⟩ => ⟨S2048x1x64, .i32⟩
  | .hbm, ⟨9, _⟩ => ⟨S2048x1x64, .i1⟩
  | .hbm, ⟨10, _⟩ => ⟨S_, .i32⟩
  | .hbm, ⟨11, _⟩ => ⟨S2048x1x64, .i32⟩
  | .hbm, ⟨12, _⟩ => ⟨S2048x1x64, .i32⟩
  | .hbm, ⟨13, _⟩ => ⟨S2048x1x64, .i32⟩
  | .hbm, ⟨14, _⟩ => ⟨S2048x1x64x1, .i32⟩
  | .hbm, ⟨15, _⟩ => ⟨S1, .i32⟩
  | .hbm, ⟨16, _⟩ => ⟨S_, .i32⟩
  | .hbm, ⟨17, _⟩ => ⟨S2048x1x64x1, .i32⟩
  | .hbm, ⟨18, _⟩ => ⟨S2048x1x64x1, .i1⟩
  | .hbm, ⟨19, _⟩ => ⟨S1x1x1x1, .i32⟩
  | .hbm, ⟨20, _⟩ => ⟨S2048x1x64x1, .i32⟩
  | .hbm, ⟨21, _⟩ => ⟨S2048x1x64x1, .i1⟩
  | .hbm, ⟨22, _⟩ => ⟨S2048x1x64x1, .i1⟩
  | .hbm, ⟨23, _⟩ => ⟨S_, .i1⟩
  | .hbm, ⟨24, _⟩ => ⟨S2048x1x64, .i1⟩
  | .hbm, ⟨25, _⟩ => ⟨S2048x1x64, .f32⟩
  | .hbm, ⟨26, _⟩ => ⟨S_, .f32⟩
  | .hbm, ⟨27, _⟩ => ⟨S2048x1x64, .f32⟩
  | .hbm, ⟨28, _⟩ => ⟨S2048x1x64, .f32⟩
  | .hbm, ⟨29, _⟩ => ⟨S2048x64, .f32⟩
  | .hbm, ⟨30, _⟩ => ⟨S64x2048, .f32⟩
  | .hbm, ⟨31, _⟩ => ⟨S16x128, .f32⟩
  | .hbm, ⟨32, _⟩ => ⟨S4096x1, .f32⟩
  | .hbm, ⟨33, _⟩ => ⟨S_, .f32⟩
  | .hbm, ⟨34, _⟩ => ⟨S_, .f32⟩
  | .hbm, ⟨35, _⟩ => ⟨S1x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S64x2048, .f32⟩
  | .local _ .vmem, ⟨3, _⟩ => ⟨S1x2048, .f32⟩
  | .local _ .vmem, ⟨4, _⟩ => ⟨S8x128, .f32⟩
  | .local _ .vmem, ⟨5, _⟩ => ⟨S8x128, .f32⟩
  | .local _ .vmem, ⟨6, _⟩ => ⟨S512x1, .f32⟩
  | .local _ .vmem, ⟨7, _⟩ => ⟨S512x1, .f32⟩
  | .local _ .vmem, ⟨8, _⟩ => ⟨S1x1, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5_0 : Ref sig .tc := ⟨.hbm, 31, rfl⟩
abbrev main_v5_1 : Ref sig .tc := ⟨.hbm, 32, rfl⟩
abbrev main_cst : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S2048_S2048x1x1_0 : S2048.BroadcastsInDim S2048x1x1 (![0] : Fin 1 → Fin S2048x1x1.rank)
  bcast_S2048x1x1_S2048x1x64_0_1_2 : S2048x1x1.BroadcastsInDim S2048x1x64 (![0, 1, 2] : Fin 3 → Fin S2048x1x64.rank)
  bcast_S_S2048x1x64 : S_.BroadcastsInDim S2048x1x64 (![] : Fin 0 → Fin S2048x1x64.rank)
  shapeCasts_S2048x1x64_S2048x1x64x1 : S2048x1x64.ShapeCasts S2048x1x64x1
  bcast_S_S2048x1x64x1 : S_.BroadcastsInDim S2048x1x64x1 (![] : Fin 0 → Fin S2048x1x64x1.rank)
  bcast_S1_S1x1x1x1_3 : S1.BroadcastsInDim S1x1x1x1 (![3] : Fin 1 → Fin S1x1x1x1.rank)
  bcast_S1x1x1x1_S2048x1x64x1_0_1_2_3 : S1x1x1x1.BroadcastsInDim S2048x1x64x1 (![0, 1, 2, 3] : Fin 4 → Fin S2048x1x64x1.rank)
  reducesTo_S2048x1x64x1_S2048x1x64_d3 : S2048x1x64x1.ReducesTo [3] S2048x1x64
  h_S_ : 0 < S_.numel
  shapeCasts_S2048x1x64_S2048x64 : S2048x1x64.ShapeCasts S2048x64
  transposes_S2048x64_S64x2048_1_0 : S2048x64.Transposes [1, 0] S64x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S8x128_S8x128_0_0 : ∀ a, (![0, 0] : Fin 2 → Nat) a + S8x128.size a ≤ S8x128.size a
  h_S8x128 : 0 < S8x128.numel
  inb_S512x2048_S512x2048_0_0 : ∀ a, (![0, 0] : Fin 2 → Nat) a + S512x2048.size a ≤ S512x2048.size a
  h_S512x2048 : 0 < S512x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S512x64_S1x512x64 : S512x64.ShapeCasts S1x512x64
  reduces_S1x512x64_S1 : S1x512x64.Reduces [1, 2] S1
  shapeCasts_S1_S1x1x1 : S1.ShapeCasts S1x1x1
  inpos_S1x1x1_p0_0_0 : ∀ a, (![0, 0, 0] : Fin 3 → Nat) a < S1x1x1.size a
  reduces_S512x2048_S2048 : S512x2048.Reduces [0] S2048
  shapeCasts_S2048_S1x2048 : S2048.ShapeCasts S1x2048
  inb_S512x1_S512x1_0_0 : ∀ a, (![0, 0] : Fin 2 → Nat) a + S512x1.size a ≤ S512x1.size a
  h_S512x1 : 0 < S512x1.numel
  reduces_S64x2048_S2048 : S64x2048.Reduces [0] S2048
  shapeCasts_S1x2048_S1x1x2048 : S1x2048.ShapeCasts S1x1x2048
  reduces_S1x1x2048_S1 : S1x1x2048.Reduces [1, 2] S1
  iota_S8x128_d0_w32 : S8x128.Iotas .tc 32 [0]
  iota_S8x128_d1_w32 : S8x128.Iotas .tc 32 [1]
  natLt_1_32 : 1 < 32
  broadcasts_S1x1_S8x128 : S1x1.Broadcasts S8x128
  reducesTo_S16x128_S_d0_1 : S16x128.ReducesTo [0, 1] S_
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S4096x1 : S_.BroadcastsInDim S4096x1 (![] : Fin 0 → Fin S4096x1.rank)
  gather_S2048x64x64_S2048x1x64x1_S2048x1x64_n_1_02_02_1_3_111_wf : GatherDims.WF S2048x64x64 S2048x1x64x1 S2048x1x64 [] [1] [0, 2] [1] [0, 2] 3 ![1, 1, 1]
  dot_S512x2048_S64x2048_S512x64_1_1_0_0_n_n_wf : DotDims.WF S512x2048 S64x2048 S512x64 [1] [1] [0] [0] [] []
  dot_S512x2048_S1x2048_S512x1_1_1_0_0_n_n_wf : DotDims.WF S512x2048 S1x2048 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)

variable [Facts₀]

def gather_S2048x64x64_S2048x1x64x1_S2048x1x64_n_1_02_02_1_3_111 : GatherDims S2048x64x64 S2048x1x64x1 S2048x1x64 where
  offsetDims := []
  collapsedSliceDims := [1]
  operandBatchingDims := [0, 2]
  startIndicesBatchingDims := [0, 2]
  startIndexMap := [1]
  indexVectorDim := 3
  sliceSizes := ![1, 1, 1]
  wf := gather_S2048x64x64_S2048x1x64x1_S2048x1x64_n_1_02_02_1_3_111_wf
def dot_S512x2048_S64x2048_S512x64_1_1_0_0_n_n : DotDims S512x2048 S64x2048 S512x64 where
  lhsContracting := [1]
  rhsContracting := [1]
  lhsNonContracting := [0]
  rhsNonContracting := [0]
  lhsBatch := []
  rhsBatch := []
  wf := dot_S512x2048_S64x2048_S512x64_1_1_0_0_n_n_wf
def dot_S512x2048_S1x2048_S512x1_1_1_0_0_n_n : DotDims S512x2048 S1x2048 S512x1 where
  lhsContracting := [1]
  rhsContracting := [1]
  lhsNonContracting := [0]
  rhsNonContracting := [0]
  lhsBatch := []
  rhsBatch := []
  wf := dot_S512x2048_S1x2048_S512x1_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond1 i == 1#1) && !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S4096x2048 : Shape := ⟨2, ![4096, 2048]⟩
abbrev S1x2048 : Shape := ⟨2, ![1, 2048]⟩
abbrev S1 : Shape := ⟨1, ![1]⟩
abbrev S2048x64x64 : Shape := ⟨3, ![2048, 64, 64]⟩
abbrev S2048 : Shape := ⟨1, ![2048]⟩
abbrev S2048x1 : Shape := ⟨2, ![2048, 1]⟩
abbrev S4096x1 : Shape := ⟨2, ![4096, 1]⟩
abbrev S1x1 : Shape := ⟨2, ![1, 1]⟩
abbrev S_ : Shape := ⟨0, ![]⟩
abbrev S2048x2 : Shape := ⟨2, ![2048, 2]⟩
abbrev S2048x64 : Shape := ⟨2, ![2048, 64]⟩
abbrev S64x2048 : Shape := ⟨2, ![64, 2048]⟩
abbrev S2048x2048 : Shape := ⟨2, ![2048, 2048]⟩
abbrev S2048x4096 : Shape := ⟨2, ![2048, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1, .f32⟩
  | .hbm, ⟨3, _⟩ => ⟨S2048x64x64, .f32⟩
  | .hbm, ⟨4, _⟩ => ⟨S2048, .i32⟩
  | .hbm, ⟨5, _⟩ => ⟨S2048x1, .f32⟩
  | .hbm, ⟨6, _⟩ => ⟨S4096x1, .f32⟩
  | .hbm, ⟨7, _⟩ => ⟨S1x1, .f32⟩
  | .hbm, ⟨8, _⟩ => ⟨S4096x1, .f32⟩
  | .hbm, ⟨9, _⟩ => ⟨S4096x1, .f32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048x1, .i32⟩
  | .hbm, ⟨26, _⟩ => ⟨S2048x1, .i32⟩
  | .hbm, ⟨27, _⟩ => ⟨S2048x2, .i32⟩
  | .hbm, ⟨28, _⟩ => ⟨S2048x64, .f32⟩
  | .hbm, ⟨29, _⟩ => ⟨S64x2048, .f32⟩
  | .hbm, ⟨30, _⟩ => ⟨S2048x2048, .f32⟩
  | .hbm, ⟨31, _⟩ => ⟨S2048x4096, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .i32⟩
  | .hbm, ⟨36, _⟩ => ⟨S_, .i32⟩
  | .hbm, ⟨37, _⟩ => ⟨S2048x2048, .i32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S_, .f32⟩
  | .hbm, ⟨48, _⟩ => ⟨S4096x1, .f32⟩
  | .hbm, ⟨49, _⟩ => ⟨S4096x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_cst : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  transposes_S1x2048_S2048x1_1_0 : S1x2048.Transposes [1, 0] S2048x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  transposes_S2048x64_S64x2048_1_0 : S2048x64.Transposes [1, 0] S64x2048
  transposes_S4096x2048_S2048x4096_1_0 : S4096x2048.Transposes [1, 0] S2048x4096
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S4096x1 : S_.BroadcastsInDim S4096x1 (![] : Fin 0 → Fin S4096x1.rank)
  dot_S4096x2048_S2048x1_S4096x1_1_0_0_1_n_n_wf : DotDims.WF S4096x2048 S2048x1 S4096x1 [1] [0] [0] [1] [] []
  gather_S2048x64x64_S2048x2_S2048x64_1_01_n_n_01_1_1164_wf : GatherDims.WF S2048x64x64 S2048x2 S2048x64 [1] [0, 1] [] [0, 1] [] 1 ![1, 1, 64]
  dot_S2048x64_S64x2048_S2048x2048_1_0_0_1_n_n_wf : DotDims.WF S2048x64 S64x2048 S2048x2048 [1] [0] [0] [1] [] []
  dot_S2048x4096_S4096x2048_S2048x2048_1_0_0_1_n_n_wf : DotDims.WF S2048x4096 S4096x2048 S2048x2048 [1] [0] [0] [1] [] []

variable [Facts₀]

def dot_S4096x2048_S2048x1_S4096x1_1_0_0_1_n_n : DotDims S4096x2048 S2048x1 S4096x1 where
  lhsContracting := [1]
  rhsContracting := [0]
  lhsNonContracting := [0]
  rhsNonContracting := [1]
  lhsBatch := []
  rhsBatch := []
  wf := dot_S4096x2048_S2048x1_S4096x1_1_0_0_1_n_n_wf
def gather_S2048x64x64_S2048x2_S2048x64_1_01_n_n_01_1_1164 : GatherDims S2048x64x64 S2048x2 S2048x64 where
  offsetDims := [1]
  collapsedSliceDims := [0, 1]
  operandBatchingDims := []
  startIndicesBatchingDims := []
  startIndexMap := [0, 1]
  indexVectorDim := 1
  sliceSizes := ![1, 1, 64]
  wf := gather_S2048x64x64_S2048x2_S2048x64_1_01_n_n_01_1_1164_wf
def dot_S2048x64_S64x2048_S2048x2048_1_0_0_1_n_n : DotDims S2048x64 S64x2048 S2048x2048 where
  lhsContracting := [1]
  rhsContracting := [0]
  lhsNonContracting := [0]
  rhsNonContracting := [1]
  lhsBatch := []
  rhsBatch := []
  wf := dot_S2048x64_S64x2048_S2048x2048_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.Spec.lean ====
/-
  The two programs as formulas over the extended reals, coordinate by coordinate.

  Inputs: a batch X of 4096 rows of 2048 features, a weight row Wt, a bias b, and the latent table read through the
  field map: VT k n is entry k of feature n's latent vector for its own field.  Both programs return, in row r,
  (∑ₙ X r n · Wt n + b) + I, where I is one scalar, the pairwise interaction

      I = ∑_{i<j} ⟨V i, V j⟩ · ⟨X·i, X·j⟩      (S i j = ∑ₖ VT k i · VT k j,  P i j = ∑_b X b i · X b j).

  The reference sums S i j · P i j over the strict upper triangle (a 0/1 mask over all pairs).  The kernel splits the
  batch in two halves p of four blocks s of 512 rows; per half it accumulates q7 = ‖X_block · V‖² (the squared entries
  of the 512×64 product) and, per feature, q8 = the block's squared column norm, and ends with
  ½ · (∑ₛ q7 − ∑ₙ (∑ₛ q8 n) · ‖V n‖²), stored at one corner of an 8×128 tile whose other entries are zero; the tiles
  of the two halves are summed.  Over the reals the two agree because S and P are symmetric:
  ∑_{i<j} S·P = ½ (∑_{i,j} S·P − ∑ᵢ S i i · P i i), and ∑_{i,j} S i j · P i j = ∑_b ∑ₖ (∑ₙ X b n · VT k n)².
-/
import Idealize.ShloMosaic.PureOps.Ideal.Laws
import Idealize.ShloMosaic.Lib.ValueIdx

noncomputable section

namespace Cert.Interaction

open Idealize.ShloMosaic Idealize.ShloMosaic.ValueIdx

/-! ## The field index -/

/-- A negative field index counts from the end: both programs add 64 to it. -/
def wrap (f : BitVec 32) : BitVec 32 := Scalar.select (IntOp.cmpi .slt f 0#32) (f + 64#32) f

/-- The wrapped index as a position in the 64 fields (reduced mod 64: the identity on an index in range). -/
def field (f : BitVec 32) : Fin 64 := ⟨(wrap f).toNat % 64, Nat.mod_lt _ (by decide)⟩

/-- The index is in range once wrapped. -/
def InRange (f : BitVec 32) : Prop := 0 ≤ (wrap f).toInt ∧ (wrap f).toInt ≤ 63

/-- Entry k of feature n's latent vector for its own field, out of the table `vec` and the field map `f2f`. -/
def latent (vec : (⟨3, ![2048, 64, 64]⟩ : Shape).Idx → EReal) (f2f : (⟨1, ![2048]⟩ : Shape).Idx → BitVec 32)
    (k : Fin 64) (n : Fin 2048) : EReal :=
  vec (ix3 n (field (f2f (ix1 n))) k)

/-! ## The formulas -/

section
variable (X : Fin 4096 → Fin 2048 → EReal) (Wt : Fin 2048 → EReal) (b : EReal) (VT : Fin 64 → Fin 2048 → EReal)

/-- Row r of block s of half p. -/
def row (p : Fin 2) (s : Fin 4) (r : Fin 512) : Fin 4096 :=
  ⟨(p.val * 4 + s.val) * 512 + r.val, by have := p.isLt; have := s.isLt; have := r.isLt; omega⟩

/-- The linear term of row r. -/
def lin (r : Fin 4096) : EReal := ∑ n : Fin 2048, X r n * Wt n

/-- Entry (r, k) of the block's product with the latent matrix. -/
def y (p : Fin 2) (s : Fin 4) (r : Fin 512) (k : Fin 64) : EReal := ∑ n : Fin 2048, X (row p s r) n * VT k n

/-- The block's contribution to the squared norm of X · V. -/
def q7 (p : Fin 2) (s : Fin 4) : EReal := ∑ r : Fin 512, ∑ k : Fin 64, y X VT p s r k * y X VT p s r k

/-- The block's contribution to feature n's squared column norm. -/
def q8 (p : Fin 2) (s : Fin 4) (n : Fin 2048) : EReal := ∑ r : Fin 512, X (row p s r) n * X (row p s r) n

/-- The two accumulators after the four blocks of half p, added in block order from zero. -/
def acc7 (p : Fin 2) : EReal := (((0 + q7 X VT p 0) + q7 X VT p 1) + q7 X VT p 2) + q7 X VT p 3
def acc8 (p : Fin 2) (n : Fin 2048) : EReal := (((0 + q8 X p 0 n) + q8 X p 1 n) + q8 X p 2 n) + q8 X p 3 n

/-- The squared norm of feature n's latent vector. -/
def nv (n : Fin 2048) : EReal := ∑ k : Fin 64, VT k n * VT k n

/-- The diagonal term of half p. -/
def diag (p : Fin 2) : EReal := ∑ n : Fin 2048, acc8 X p n * nv VT n

/-- One half. -/
def half : EReal := ((1 / 2 : ℝ) : EReal)

/-- Half p's share of the interaction. -/
def part (p : Fin 2) : EReal := half * (acc7 X VT p - diag X VT p)

/-- The kernel's 16×128 result: half p's share at the corner (8p, 0) of its tile, zero elsewhere. -/
def tile (i : Fin 16) (j : Fin 128) : EReal :=
  part X VT ⟨i.val / 8, by have := i.isLt; omega⟩ * (if i.val % 8 = 0 ∧ j.val = 0 then 1 else 0)

/-- The kernel's interaction scalar: the sum of the tiles, from zero. -/
def interK : EReal := 0 + ∑ i : Fin 16, ∑ j : Fin 128, tile X VT i j

/-- The kernel's result in row r. -/
def resultK (r : Fin 4096) : EReal := (lin X Wt r + b) + interK X VT

/-- The Gram entries of the latent vectors and of the features over the batch. -/
def S (i j : Fin 2048) : EReal := ∑ k : Fin 64, VT k i * VT k j
def P (i j : Fin 2048) : EReal := ∑ bb : Fin 4096, X bb i * X bb j

/-- The reference's interaction scalar: S · P masked to the strict upper triangle, summed from zero. -/
def interR : EReal :=
  0 + ∑ i : Fin 2048, ∑ j : Fin 2048, (S VT i j * P X i j) * (if j ≤ i then 0 else 1)

/-- The reference's result in row r. -/
def resultR (r : Fin 4096) : EReal := (lin X Wt r + b) + interR X VT

end

end Cert.Interaction

end
-- ==== Proof.Algebra.lean ====
/-
  The two interaction scalars agree on finite inputs.

  Over the reals S and P are symmetric, so the strict upper triangle carries half of what the full square carries
  beyond its diagonal:  ∑_{i<j} S i j · P i j = ½ (∑_{i,j} S i j · P i j − ∑ᵢ S i i · P i i).  The full square is the
  squared norm of the product X · V:  ∑_{i,j} (∑ₖ VT k i · VT k j)(∑_b X b i · X b j) = ∑_b ∑ₖ (∑ₙ X b n · VT k n)²,
  and the diagonal is ∑ₙ ‖X·ₙ‖² ‖Vₙ‖².  The kernel computes both per half of the batch and adds the halves.
  Every extended real in sight is the image of a real, so the identity is proved in ℝ and carried over.
-/
import proofs.«400855_j20830591385963_3_alg».proof.Proof.Spec

noncomputable section

namespace Cert.Interaction

open Idealize.ShloMosaic

namespace Alg

/-! ## Sums of reals inside the extended reals -/

/-- The coercion of a finite sum of reals is the sum of the coercions. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Three identities over the reals -/

/-- For a symmetric summand the strict upper triangle is half of the square without its diagonal. -/
theorem upper_eq_half {ι : Type*} [Fintype ι] [LinearOrder ι] (f : ι → ι → ℝ) (hf : ∀ i j, f i j = f j i) :
    ∑ i, ∑ j, f i j * (if j ≤ i then 0 else 1) = (1 / 2) * (∑ i, ∑ j, f i j - ∑ i, f i i) := by
  have hL : ∑ i, ∑ j, f i j * (if i ≤ j then (0 : ℝ) else 1) = ∑ i, ∑ j, f i j * (if j ≤ i then 0 else 1) := by
    rw [Finset.sum_comm]
    refine Finset.sum_congr rfl fun i _ => Finset.sum_congr rfl fun j _ => ?_
    rw [hf j i]
  have hT : ∑ i, ∑ j, f i j = ∑ i, ∑ j, f i j * (if j ≤ i then 0 else 1)
      + ∑ i, ∑ j, f i j * (if i ≤ j then (0 : ℝ) else 1) + ∑ i, f i i := by
    rw [← Finset.sum_add_distrib, ← Finset.sum_add_distrib]
    refine Finset.sum_congr rfl fun i _ => ?_
    have hd : f i i = ∑ j, f i j * (if j = i then (1 : ℝ) else 0) := by
      simp
    rw [hd, ← Finset.sum_add_distrib, ← Finset.sum_add_distrib]
    refine Finset.sum_congr rfl fun j _ => ?_
    rcases lt_trichotomy i j with h | h | h
    · have h1 : ¬ j ≤ i := not_le.mpr h
      have h2 : i ≤ j := le_of_lt h
      have h3 : ¬ j = i := fun e => (ne_of_lt h) e.symm
      simp [h1, h2, h3]
    · subst h
      simp
    · have h1 : j ≤ i := le_of_lt h
      have h2 : ¬ i ≤ j := not_le.mpr h
      have h3 : ¬ j = i := ne_of_lt h
      simp [h1, h2, h3]
  linarith

/-- The full square of S · P is the squared norm of the product X · V. -/
theorem gram_sq {B K N : Type*} [Fintype B] [Fintype K] [Fintype N] (x : B → N → ℝ) (v : K → N → ℝ) :
    ∑ i, ∑ j, (∑ k, v k i * v k j) * (∑ b, x b i * x b j)
      = ∑ b, ∑ k, (∑ n, x b n * v k n) * (∑ n, x b n * v k n) := by
  have hR : ∀ b k, (∑ n, x b n * v k n) * (∑ n, x b n * v k n)
      = ∑ i, ∑ j, (v k i * v k j) * (x b i * x b j) := by
    intro b k
    rw [Finset.sum_mul_sum]
    refine Finset.sum_congr rfl fun i _ => Finset.sum_congr rfl fun j _ => ?_
    ring
  have hL : ∀ i j, (∑ k, v k i * v k j) * (∑ b, x b i * x b j)
      = ∑ b, ∑ k, (v k i * v k j) * (x b i * x b j) := by
    intro i j
    rw [Finset.sum_mul_sum, Finset.sum_comm]
  simp only [hR, hL]
  -- ∑ i ∑ j ∑ b ∑ k  →  ∑ b ∑ k ∑ i ∑ j
  calc ∑ i, ∑ j, ∑ b, ∑ k, (v k i * v k j) * (x b i * x b j)
      = ∑ i, ∑ b, ∑ j, ∑ k, (v k i * v k j) * (x b i * x b j) :=
        Finset.sum_congr rfl fun i _ => Finset.sum_comm
    _ = ∑ b, ∑ i, ∑ j, ∑ k, (v k i * v k j) * (x b i * x b j) := Finset.sum_comm
    _ = ∑ b, ∑ i, ∑ k, ∑ j, (v k i * v k j) * (x b i * x b j) :=
        Finset.sum_congr rfl fun b _ => Finset.sum_congr rfl fun i _ => Finset.sum_comm
    _ = ∑ b, ∑ k, ∑ i, ∑ j, (v k i * v k j) * (x b i * x b j) :=
        Finset.sum_congr rfl fun b _ => Finset.sum_comm

/-- The rows of the batch, listed half by half, block by block. -/
def rowEquiv : (Fin 2 × Fin 4) × Fin 512 ≃ Fin 4096 where
  toFun t := row t.1.1 t.1.2 t.2
  invFun b := ((⟨b.val / 2048, by have := b.isLt; omega⟩, ⟨b.val / 512 % 4, by omega⟩),
    ⟨b.val % 512, by omega⟩)
  left_inv := by
    rintro ⟨⟨p, s⟩, r⟩
    have := p.isLt; have := s.isLt; have := r.isLt
    simp only [row, Prod.mk.injEq, Fin.ext_iff]
    omega
  right_inv := by
    intro b
    have := b.isLt
    simp only [row, Fin.ext_iff]
    omega

/-- A sum over the halves, their blocks and the blocks' rows is a sum over the batch. -/
theorem sum_rows (g : Fin 4096 → ℝ) :
    ∑ p : Fin 2, ∑ s : Fin 4, ∑ r : Fin 512, g (row p s r) = ∑ b, g b := by
  rw [← Equiv.sum_comp rowEquiv g, Fintype.sum_prod_type, Fintype.sum_prod_type]
  rfl

/-- The tiles of the two halves hold one nonzero entry each, so their sum is the sum of the two shares. -/
theorem tile_sum (c : Fin 2 → ℝ) :
    ∑ i : Fin 16, ∑ j : Fin 128,
        c ⟨i.val / 8, by have := i.isLt; omega⟩ * (if i.val % 8 = 0 ∧ j.val = 0 then (1 : ℝ) else 0)
      = c 0 + c 1 := by
  have hin : ∀ i : Fin 16, ∑ j : Fin 128,
      c ⟨i.val / 8, by have := i.isLt; omega⟩ * (if i.val % 8 = 0 ∧ j.val = 0 then (1 : ℝ) else 0)
        = c ⟨i.val / 8, by have := i.isLt; omega⟩ * (if i.val % 8 = 0 then (1 : ℝ) else 0) := by
    intro i
    rw [← Finset.mul_sum]
    congr 1
    rw [Finset.sum_eq_single (0 : Fin 128)]
    · simp
    · intro j _ hj
      have hj' : j.val ≠ 0 := fun e => hj (Fin.ext e)
      simp [hj']
    · intro h
      exact absurd (Finset.mem_univ _) h
  simp only [hin]
  rw [Finset.sum_eq_add (0 : Fin 16) (8 : Fin 16)]
  · have h0 : (⟨(0 : Fin 16).val / 8, by decide⟩ : Fin 2) = 0 := by decide
    have h8 : (⟨(8 : Fin 16).val / 8, by decide⟩ : Fin 2) = 1 := by decide
    have e0 : (0 : Fin 16).val % 8 = 0 := by decide
    have e8 : (8 : Fin 16).val % 8 = 0 := by decide
    rw [if_pos e0, if_pos e8, mul_one, mul_one]
    exact congrArg₂ (fun a b => c a + c b) h0 h8
  · decide
  · intro i _ hi
    have hlt := i.isLt
    have h1 : i.val ≠ 0 := fun e => hi.1 (Fin.ext e)
    have h2 : i.val ≠ 8 := fun e => hi.2 (Fin.ext e)
    have h3 : ¬ i.val % 8 = 0 := by omega
    rw [if_neg h3, mul_zero]
  · intro h
    exact absurd (Finset.mem_univ _) h
  · intro h
    exact absurd (Finset.mem_univ _) h

/-! ## The formulas over the reals -/

section
variable (x : Fin 4096 → Fin 2048 → ℝ) (v : Fin 64 → Fin 2048 → ℝ)

/-- The real namesakes of the kernel's and the reference's quantities. -/
def yR (p : Fin 2) (s : Fin 4) (r : Fin 512) (k : Fin 64) : ℝ := ∑ n : Fin 2048, x (row p s r) n * v k n
def q7R (p : Fin 2) (s : Fin 4) : ℝ := ∑ r : Fin 512, ∑ k : Fin 64, yR x v p s r k * yR x v p s r k
def q8R (p : Fin 2) (s : Fin 4) (n : Fin 2048) : ℝ := ∑ r : Fin 512, x (row p s r) n * x (row p s r) n
def acc7R (p : Fin 2) : ℝ := (((0 + q7R x v p 0) + q7R x v p 1) + q7R x v p 2) + q7R x v p 3
def acc8R (p : Fin 2) (n : Fin 2048) : ℝ := (((0 + q8R x p 0 n) + q8R x p 1 n) + q8R x p 2 n) + q8R x p 3 n
def nvR (n : Fin 2048) : ℝ := ∑ k : Fin 64, v k n * v k n
def diagR (p : Fin 2) : ℝ := ∑ n : Fin 2048, acc8R x p n * nvR v n
def partR (p : Fin 2) : ℝ := (1 / 2) * (acc7R x v p - diagR x v p)
def SR (i j : Fin 2048) : ℝ := ∑ k : Fin 64, v k i * v k j
def PR (i j : Fin 2048) : ℝ := ∑ b : Fin 4096, x b i * x b j

/-- The identity over the reals: the two shares add up to the strict upper triangle of S · P. -/
theorem real_identity :
    partR x v 0 + partR x v 1
      = ∑ i : Fin 2048, ∑ j : Fin 2048, (SR v i j * PR x i j) * (if j ≤ i then 0 else 1) := by
  have hsymm : ∀ i j : Fin 2048, SR v i j * PR x i j = SR v j i * PR x j i := by
    intro i j
    have h1 : SR v i j = SR v j i := Finset.sum_congr rfl fun k _ => mul_comm _ _
    have h2 : PR x i j = PR x j i := Finset.sum_congr rfl fun b _ => mul_comm _ _
    rw [h1, h2]
  rw [upper_eq_half (fun i j => SR v i j * PR x i j) hsymm]
  have hA : acc7R x v 0 + acc7R x v 1 = ∑ i : Fin 2048, ∑ j : Fin 2048, SR v i j * PR x i j := by
    have hg := gram_sq x v
    simp only [SR, PR]
    rw [hg, ← sum_rows (fun b => ∑ k, (∑ n, x b n * v k n) * (∑ n, x b n * v k n))]
    simp only [Fin.sum_univ_two, Fin.sum_univ_four, acc7R, q7R, yR]
    ring
  have hD : diagR x v 0 + diagR x v 1 = ∑ i : Fin 2048, SR v i i * PR x i i := by
    unfold diagR
    rw [← Finset.sum_add_distrib]
    refine Finset.sum_congr rfl fun n _ => ?_
    simp only [SR, PR]
    rw [← sum_rows (fun b => x b n * x b n)]
    simp only [Fin.sum_univ_two, Fin.sum_univ_four, acc8R, q8R, nvR]
    ring
  unfold partR
  rw [← hA, ← hD]
  ring

/-! ## Every extended real in sight is the image of its real namesake -/

theorem ite_one_zero_coe (c : Prop) [Decidable c] :
    (if c then (1 : EReal) else 0) = (((if c then 1 else 0 : ℝ)) : EReal) := by
  split_ifs <;> simp

theorem ite_zero_one_coe (c : Prop) [Decidable c] :
    (if c then (0 : EReal) else 1) = (((if c then 0 else 1 : ℝ)) : EReal) := by
  split_ifs <;> simp

theorem y_coe (p : Fin 2) (s : Fin 4) (r : Fin 512) (k : Fin 64) :
    y (fun r n => (x r n : EReal)) (fun k n => (v k n : EReal)) p s r k = ((yR x v p s r k : ℝ) : EReal) := by
  simp only [y, yR, coe_sum_real, EReal.coe_mul]

theorem q7_coe (p : Fin 2) (s : Fin 4) :
    q7 (fun r n => (x r n : EReal)) (fun k n => (v k n : EReal)) p s = ((q7R x v p s : ℝ) : EReal) := by
  simp only [q7, q7R, y_coe, coe_sum_real, EReal.coe_mul]

theorem q8_coe (p : Fin 2) (s : Fin 4) (n : Fin 2048) :
    q8 (fun r n => (x r n : EReal)) p s n = ((q8R x p s n : ℝ) : EReal) := by
  simp only [q8, q8R, coe_sum_real, EReal.coe_mul]

theorem acc7_coe (p : Fin 2) :
    acc7 (fun r n => (x r n : EReal)) (fun k n => (v k n : EReal)) p = ((acc7R x v p : ℝ) : EReal) := by
  simp only [acc7, acc7R, q7_coe, EReal.coe_add, EReal.coe_zero]

theorem acc8_coe (p : Fin 2) (n : Fin 2048) :
    acc8 (fun r n => (x r n : EReal)) p n = ((acc8R x p n : ℝ) : EReal) := by
  simp only [acc8, acc8R, q8_coe, EReal.coe_add, EReal.coe_zero]

theorem nv_coe (n : Fin 2048) :
    nv (fun k n => (v k n : EReal)) n = ((nvR v n : ℝ) : EReal) := by
  simp only [nv, nvR, coe_sum_real, EReal.coe_mul]

theorem diag_coe (p : Fin 2) :
    diag (fun r n => (x r n : EReal)) (fun k n => (v k n : EReal)) p = ((diagR x v p : ℝ) : EReal) := by
  simp only [diag, diagR, acc8_coe, nv_coe, coe_sum_real, EReal.coe_mul]

theorem part_coe (p : Fin 2) :
    part (fun r n => (x r n : EReal)) (fun k n => (v k n : EReal)) p = ((partR x v p : ℝ) : EReal) := by
  simp only [part, partR, half, acc7_coe, diag_coe, EReal.coe_mul, EReal.coe_sub]

theorem S_coe (i j : Fin 2048) :
    S (fun k n => (v k n : EReal)) i j = ((SR v i j : ℝ) : EReal) := by
  simp only [S, SR, coe_sum_real, EReal.coe_mul]

theorem P_coe (i j : Fin 2048) :
    P (fun r n => (x r n : EReal)) i j = ((PR x i j : ℝ) : EReal) := by
  simp only [P, PR, coe_sum_real, EReal.coe_mul]

theorem interK_coe :
    interK (fun r n => (x r n : EReal)) (fun k n => (v k n : EReal))
      = ((partR x v 0 + partR x v 1 : ℝ) : EReal) := by
  rw [← tile_sum (partR x v)]
  simp only [interK, tile, part_coe, ite_one_zero_coe, coe_sum_real, EReal.coe_mul, zero_add]

theorem interR_coe :
    interR (fun r n => (x r n : EReal)) (fun k n => (v k n : EReal))
      = ((∑ i : Fin 2048, ∑ j : Fin 2048, (SR v i j * PR x i j) * (if j ≤ i then 0 else 1) : ℝ) : EReal) := by
  simp only [interR, S_coe, P_coe, ite_zero_one_coe, coe_sum_real, EReal.coe_mul, zero_add]

end

end Alg

theorem interK_eq_interR (X : Fin 4096 → Fin 2048 → EReal) (VT : Fin 64 → Fin 2048 → EReal)
    (hX : ∀ r n, ∃ x : ℝ, X r n = (x : EReal)) (hV : ∀ k n, ∃ v : ℝ, VT k n = (v : EReal)) :
    interK X VT = interR X VT := by
  choose x hx using hX
  choose v hv using hV
  obtain rfl : X = fun r n => (x r n : EReal) := funext fun r => funext fun n => hx r n
  obtain rfl : VT = fun k n => (v k n : EReal) := funext fun k => funext fun n => hv k n
  rw [Alg.interK_coe, Alg.interR_coe, Alg.real_identity]

theorem resultK_eq_resultR (X : Fin 4096 → Fin 2048 → EReal) (Wt : Fin 2048 → EReal) (b : EReal)
    (VT : Fin 64 → Fin 2048 → EReal)
    (hX : ∀ r n, ∃ x : ℝ, X r n = (x : EReal)) (hV : ∀ k n, ∃ v : ℝ, VT k n = (v : EReal)) (r : Fin 4096) :
    resultK X Wt b VT r = resultR X Wt b VT r := by
  unfold resultK resultR
  rw [interK_eq_interR X VT hX hV]

end Cert.Interaction

end
-- ==== Proof.PreDecode.lean ====
/-
  What the precondition says, entry by entry: every entry of the batch X and of the latent table is a real number,
  and every field index, once a negative one is wrapped, lies in 0 … 63.
-/
import proofs.«400855_j20830591385963_3_alg».proof.Pre_finite_inputs
import proofs.«400855_j20830591385963_3_alg».proof.Proof.Spec
import Idealize.ShloMosaic.Lib.ReduceAll
import Idealize.ShloMosaic.Lib.StableHlo.Predicate

noncomputable section

namespace Cert.Interaction

open Idealize.ShloMosaic Idealize.ShloMosaic.ValueIdx

namespace PreDecode

/-- A rank-0 shape has one index: two of them agree at every axis, of which there is none. -/
instance subsingleton_S_ : Subsingleton Cert.Pre_finite_inputs.S_.Idx := ⟨fun a b => funext fun d => d.elim0⟩

/-- The pattern 0x7F800000 (sign clear, exponent all ones, significand zero) denotes +∞. -/
theorem top_f32 : Ideal.ofBits .f32 0x7F800000#32 = (⊤ : EReal) := by
  simp [Ideal.ofBits, Ideal.ieee]

/-- An extended real whose absolute value max x (−x) is below +∞ is a real: −∞ has absolute value +∞, and so has +∞. -/
theorem real_of_abs_lt (x : EReal)
    (h : Ideal.cmp .olt (max x (-x)) (Ideal.ofBits .f32 0x7F800000#32) = 1#1) : ∃ r : ℝ, x = (r : EReal) := by
  rw [top_f32] at h
  simp only [Ideal.cmp, StableHlo.Predicate.ofBool_eq_one_iff, decide_eq_true_eq] at h
  induction x using EReal.rec with
  | bot => simp at h
  | coe r => exact ⟨r, rfl⟩
  | top => simp at h

/-- A field index f with −64 ≤ f < 64 (read signed; −64 is the word 2³² − 64) is in range once wrapped:
    a negative f becomes f + 64, which does not overflow and lies in 0 … 63; a nonnegative f is kept and is below 64. -/
theorem inRange_of_bounds (f : BitVec 32) (h1 : (4294967232#32 : BitVec 32).toInt ≤ f.toInt)
    (h2 : f.toInt < (64#32 : BitVec 32).toInt) : InRange f := by
  have e1 : (4294967232#32 : BitVec 32).toInt = -64 := by decide
  have e2 : (64#32 : BitVec 32).toInt = 64 := by decide
  have e0 : (0#32 : BitVec 32).toInt = 0 := by decide
  rw [e1] at h1; rw [e2] at h2
  unfold InRange wrap
  by_cases hc : IntOp.cmpi .slt f 0#32 = 1#1
  · rw [hc, select_one]
    have hlt := IntOp.cmpi_slt.1 hc
    rw [e0] at hlt
    have ha : (f + 64#32).toInt = f.toInt + 64 := by
      rw [BitVec.toInt_add, e2]
      exact Int.bmod_eq_of_le (by omega) (by omega)
    rw [ha]; omega
  · have hge : ¬ f.toInt < 0 := fun hlt => hc (IntOp.cmpi_slt.2 (by rw [e0]; exact hlt))
    rw [eq_zero_of_ne_one hc, select_zero]
    omega

end PreDecode

open PreDecode in
/-- The precondition is a conjunction of six tests, each the conjunction over all entries of one array: |x| < +∞ on the
    four float inputs, −64 ≤ f and f < 64 on the field map.  That it is 1 says every test is 1 at every entry. -/
theorem of_pre [Cert.Pre_finite_inputs.Facts]
    (x0 : FVec Ideal Cert.Pre_finite_inputs.S4096x2048 .f32) (x1 : FVec Ideal Cert.Pre_finite_inputs.S1x2048 .f32)
    (x2 : FVec Ideal Cert.Pre_finite_inputs.S1 .f32) (x3 : FVec Ideal Cert.Pre_finite_inputs.S2048x64x64 .f32)
    (x4 : IVec Cert.Pre_finite_inputs.S2048 32)
    (h : Cert.Pre_finite_inputs.fn (F := Ideal) x0 x1 x2 x3 x4 = fun _ => 1#1) :
    (∀ i, ∃ r : ℝ, x0 i = (r : EReal)) ∧ (∀ i, ∃ r : ℝ, x3 i = (r : EReal)) ∧ (∀ i, InRange (x4 i)) := by
  have e := congrFun h ValueIdx.ix0
  dsimp only [Cert.Pre_finite_inputs.fn, Cert.Pre_finite_inputs.fn_part1] at e
  simp only [Idealize.ShloMosaic.andi, IntOp.andi_eq_one] at e
  obtain ⟨⟨⟨⟨⟨h0, -⟩, -⟩, h3⟩, h4⟩, h5⟩ := e
  refine ⟨fun i => ?_, fun i => ?_, fun i => ?_⟩
  · exact real_of_abs_lt _ (Host.reduce_andi_all _ _ _ _ _ h0 i)
  · exact real_of_abs_lt _ (Host.reduce_andi_all _ _ _ _ _ h3 i)
  · have g4 := Host.reduce_andi_all _ _ _ _ _ h4 i
    have g5 := Host.reduce_andi_all _ _ _ _ _ h5 i
    exact inRange_of_bounds _ (IntOp.cmpi_sge.1 g4) (IntOp.cmpi_slt.1 g5)

end Cert.Interaction

end
-- ==== Proof.RefLatent.lean ====
/-
  The latent matrix on the reference's side: row n of the gathered 2048 × 64 array is feature n's latent vector for
  its own field.  The gather's start indices pair the row number n (an iota, never negative, so its wrap is the
  identity) with the wrapped field index; with that index in 0 … 63 the clamp of the gather is the identity too.
-/
import proofs.«400855_j20830591385963_3_alg».proof.Proof.Gen.ReferenceIdeal.Read
import proofs.«400855_j20830591385963_3_alg».proof.Proof.Spec
import Idealize.ShloMosaic.Lib.ValueLayout
import Idealize.ShloMosaic.Lib.StableHlo.Predicate
import Idealize.ShloMosaic.Lib.DynamicIndex

noncomputable section

namespace Cert.ReferenceIdeal.Latent

open Idealize.ShloMosaic Idealize.ShloMosaic.ValueIdx Cert.ReferenceIdeal Cert.ReferenceIdeal.Gen

/-- The first column of the start-index table holds the row numbers: an iota is never negative, so its wrap is the identity. -/
theorem starts_row (x4 : IVec S2048 32) (n : Fin 2048) :
    Cert.ReferenceIdeal.Read.val_main_v18 (F := Ideal) x4 (ix2 n (0 : Fin 2)) = BitVec.ofNat 32 n.val := by
  unfold Cert.ReferenceIdeal.Read.val_main_v18
  refine (concatenate_pair_apply_left (t := S2048x2) (s₁ := S2048x1) (s₂ := S2048x1) (1 : Fin 2) _ _
    concatenates_S2048x1_S2048x1_S2048x2_d1 (ix2 n (0 : Fin 2)) rfl
    (ix2 n (0 : Fin 1)) (fun b => match b with | ⟨0, _⟩ => rfl | ⟨1, _⟩ => rfl)).trans ?_
  rw [Cert.ReferenceIdeal.Read.val_main_v16_apply, Cert.ReferenceIdeal.Read.val_main_v10_apply,
    Cert.ReferenceIdeal.Read.val_main_v7_apply, Cert.ReferenceIdeal.Read.val_main_v6_apply,
    Cert.ReferenceIdeal.Read.val_main_c_apply, Cert.ReferenceIdeal.Read.val_main_v5_apply]
  show Scalar.select (IntOp.cmpi .slt (BitVec.ofNat 32 n.val) 0#32) _ (BitVec.ofNat 32 n.val) = BitVec.ofNat 32 n.val
  have hn : ¬ IntOp.cmpi .slt (BitVec.ofNat 32 n.val) 0#32 = 1#1 := by
    rw [IntOp.cmpi_slt, toInt_ofNat_of_lt (by have := n.isLt; omega), BitVec.toInt_zero]
    omega
  exact if_neg hn

/-- The second column of the start-index table holds the wrapped field index of the row's feature. -/
theorem starts_field (x4 : IVec S2048 32) (n : Fin 2048) :
    Cert.ReferenceIdeal.Read.val_main_v18 (F := Ideal) x4 (ix2 n (1 : Fin 2)) = Cert.Interaction.wrap (x4 (ix1 n)) := by
  unfold Cert.ReferenceIdeal.Read.val_main_v18
  refine (concatenate_pair_apply_right (t := S2048x2) (s₁ := S2048x1) (s₂ := S2048x1) (1 : Fin 2) _ _
    concatenates_S2048x1_S2048x1_S2048x2_d1 (ix2 n (1 : Fin 2)) rfl rfl
    (ix2 n (0 : Fin 1)) (fun b => match b with | ⟨0, _⟩ => fun _ => rfl | ⟨1, _⟩ => fun h => absurd rfl h) rfl).trans ?_
  have hi : Cert.ReferenceIdeal.Read.idx_main_v17 (ix2 n (0 : Fin 1)) = ix1 n := by
    funext a; match a with | ⟨0, _⟩ => rfl
  rw [Cert.ReferenceIdeal.Read.val_main_v17_apply, Cert.ReferenceIdeal.Read.val_main_v15_apply,
    Cert.ReferenceIdeal.Read.val_main_v12_apply, Cert.ReferenceIdeal.Read.val_main_v14_apply,
    Cert.ReferenceIdeal.Read.val_main_v11_apply, Cert.ReferenceIdeal.Read.val_main_v13_apply,
    Cert.ReferenceIdeal.Read.val_main_c_1_apply, Cert.ReferenceIdeal.Read.val_main_c_2_apply, hi]
  rfl

/-- The gather's dimension numbers: axes 0 and 1 of the table are start-indexed and collapsed, axis 2 is the one offset axis. -/
private abbrev gd := gather_S2048x64x64_S2048x2_S2048x64_1_01_n_n_01_1_1164

/-- Row n of the gathered array is feature n's latent vector for its own field: on axis 0 the start is the row number,
    below 2048, so the clamp to 0 … 2047 is the identity; on axis 1 it is the wrapped field index, in 0 … 63 by hypothesis,
    so the clamp to 0 … 63 is the identity and so is the reduction mod 64; axis 2 is read at the offset coordinate k. -/
theorem gathered_apply (x3 : FVec Ideal S2048x64x64 .f32) (x4 : IVec S2048 32)
    (hr : ∀ n : Fin 2048, Cert.Interaction.InRange (x4 (ix1 n))) (n : Fin 2048) (k : Fin 64) :
    Cert.ReferenceIdeal.Read.val_main_v19 (F := Ideal) x3 x4 (ix2 n k) = Cert.Interaction.latent x3 x4 k n := by
  have h0 := starts_row x4 n
  have h1 := starts_field x4 n
  have hw := hr n
  unfold Cert.ReferenceIdeal.Read.val_main_v19
  generalize Cert.ReferenceIdeal.Read.val_main_v18 (F := Ideal) x4 = idx at h0 h1
  unfold Host.gather Cert.Interaction.latent
  refine congrArg x3 ?_
  funext a
  refine Fin.ext ?_
  have hnb : ∀ a : Fin 3, a ∉ gd.operandBatchingDims := fun _ => List.not_mem_nil
  match a with
  | ⟨0, _⟩ =>
    show gd.start (ix2 n k) idx 0 + gd.batchCoord (ix2 n k) 0 + gd.offCoord (ix2 n k) 0 = n.val
    have hm : (0 : Fin 3) ∈ gd.startIndexMap := List.mem_cons_self
    have hsi : gd.siIdx (ix2 n k) ⟨List.idxOf (0 : Fin 3) gd.startIndexMap, List.idxOf_lt_length_iff.2 hm⟩ = ix2 n (0 : Fin 2) := by
      funext b; refine Fin.ext ?_
      match b with
      | ⟨0, _⟩ => rfl
      | ⟨1, _⟩ => rfl
    rw [GatherDims.batchCoord_eq_zero _ _ _ (hnb 0),
      GatherDims.offCoord_eq_zero _ _ _ (fun h => ((GatherDims.mem_sKept _ _).mp h).1 List.mem_cons_self)]
    unfold GatherDims.start
    rw [dif_pos hm, hsi, h0, toInt_ofNat_of_lt (by have := n.isLt; omega), Int.toNat_natCast]
    show min n.val (2048 - 1) + 0 + 0 = n.val
    have := n.isLt
    omega
  | ⟨1, _⟩ =>
    show gd.start (ix2 n k) idx 1 + gd.batchCoord (ix2 n k) 1 + gd.offCoord (ix2 n k) 1
      = (Cert.Interaction.wrap (x4 (ix1 n))).toNat % 64
    have hm : (1 : Fin 3) ∈ gd.startIndexMap := List.mem_cons_of_mem _ List.mem_cons_self
    have hsi : gd.siIdx (ix2 n k) ⟨List.idxOf (1 : Fin 3) gd.startIndexMap, List.idxOf_lt_length_iff.2 hm⟩ = ix2 n (1 : Fin 2) := by
      funext b; refine Fin.ext ?_
      match b with
      | ⟨0, _⟩ => rfl
      | ⟨1, _⟩ => rfl
    rw [GatherDims.batchCoord_eq_zero _ _ _ (hnb 1),
      GatherDims.offCoord_eq_zero _ _ _ (fun h => ((GatherDims.mem_sKept _ _).mp h).1 (List.mem_cons_of_mem _ List.mem_cons_self))]
    unfold GatherDims.start
    rw [dif_pos hm, hsi, h1]
    show min (Cert.Interaction.wrap (x4 (ix1 n))).toInt.toNat (64 - 1) + 0 + 0 = _
    obtain ⟨hlo, hhi⟩ := hw
    generalize Cert.Interaction.wrap (x4 (ix1 n)) = w at hlo hhi ⊢
    have e : w.toInt = (w.toNat : Int) := by
      have hlt := w.isLt
      rw [BitVec.toInt_eq_toNat_cond] at hlo ⊢
      split
      · rfl
      · next h => rw [if_neg h] at hlo; omega
    rw [e] at hhi
    rw [e, Int.toNat_natCast]
    omega
  | ⟨2, _⟩ =>
    show gd.start (ix2 n k) idx 2 + gd.batchCoord (ix2 n k) 2 + gd.offCoord (ix2 n k) 2 = k.val
    have hm : (2 : Fin 3) ∉ gd.startIndexMap := by
      show (2 : Fin 3) ∉ [(0 : Fin 3), 1]
      decide
    have hk : (2 : Fin 3) ∈ gd.sKept := by
      rw [GatherDims.mem_sKept]
      refine ⟨?_, hnb 2⟩
      show (2 : Fin 3) ∉ [(0 : Fin 3), 1]
      decide
    rw [GatherDims.batchCoord_eq_zero _ _ _ (hnb 2)]
    unfold GatherDims.start GatherDims.offCoord
    rw [dif_neg hm, dif_pos hk]
    show 0 + 0 + k.val = k.val
    omega

end Cert.ReferenceIdeal.Latent

end
-- ==== Proof.RefValue.lean ====
/-
  The reference's result, row by row, as the formula of the specification: the linear term plus the bias plus the
  interaction scalar — the Gram products S · P masked to the strict upper triangle and summed.
-/
import proofs.«400855_j20830591385963_3_alg».proof.Proof.RefLatent

noncomputable section

namespace Cert.ReferenceIdeal.RefValue

open Idealize.ShloMosaic Idealize.ShloMosaic.ValueIdx Cert.ReferenceIdeal Cert.ReferenceIdeal.Gen

/-! ## The linear term and the bias -/

/-- The first product: row r of X against the weight row. -/
theorem lin_apply (x0 : FVec Ideal S4096x2048 .f32) (x1 : FVec Ideal S1x2048 .f32) (r : Fin 4096) :
    Cert.ReferenceIdeal.Read.val_main_v1 (F := Ideal) x0 x1 (ix2 r 0)
      = Cert.Interaction.lin (fun a n => x0 (ix2 a n)) (fun n => x1 (ix2 0 n)) r := by
  rw [Read.val_main_v1_apply]
  unfold Cert.Interaction.lin
  refine Finset.sum_congr rfl fun k _ => ?_
  rw [Read.val_main_v0_apply]
  have e1 : Read.lidx_main_v1 (ix2 r (0 : Fin 1)) k = ix2 r k :=
    funext fun a => Fin.ext (by match a with | ⟨0, _⟩ => rfl | ⟨1, _⟩ => rfl)
  have e2 : Read.idx_main_v0 (Read.ridx_main_v1 (ix2 r (0 : Fin 1)) k) = ix2 (0 : Fin 1) k :=
    funext fun a => Fin.ext (by match a with | ⟨0, _⟩ => rfl | ⟨1, _⟩ => rfl)
  rw [e1, e2]

/-- The bias, broadcast to every row. -/
theorem bias_apply (x2 : FVec Ideal S1 .f32) (r : Fin 4096) :
    Cert.ReferenceIdeal.Read.val_main_v3 (F := Ideal) x2 (ix2 r 0) = x2 (ix1 0) := by
  rw [Read.val_main_v3_apply, Read.val_main_v2_apply]
  have e : Read.idx_main_v2 (Read.idx_main_v3 (ix2 r (0 : Fin 1))) = ix1 (0 : Fin 1) :=
    funext fun a => Fin.ext (by match a with | ⟨0, _⟩ => rfl)
  rw [e]

/-! ## The two Gram matrices -/

/-- The Gram matrix of the latent vectors. -/
theorem gramS_apply (x3 : FVec Ideal S2048x64x64 .f32) (x4 : IVec S2048 32)
    (hr : ∀ n : Fin 2048, Cert.Interaction.InRange (x4 (ix1 n))) (i j : Fin 2048) :
    Cert.ReferenceIdeal.Read.val_main_v21 (F := Ideal) x3 x4 (ix2 i j)
      = Cert.Interaction.S (Cert.Interaction.latent x3 x4) i j := by
  rw [Read.val_main_v21_apply]
  unfold Cert.Interaction.S
  refine Finset.sum_congr rfl fun k _ => ?_
  rw [Read.val_main_v20_apply]
  have e1 : Read.lidx_main_v21 (ix2 i j) k = ix2 i k :=
    funext fun a => Fin.ext (by match a with | ⟨0, _⟩ => rfl | ⟨1, _⟩ => rfl)
  have e2 : Read.idx_main_v20 (Read.ridx_main_v21 (ix2 i j) k) = ix2 j k :=
    funext fun a => Fin.ext (by match a with | ⟨0, _⟩ => rfl | ⟨1, _⟩ => rfl)
  rw [e1, e2, Latent.gathered_apply x3 x4 hr i k, Latent.gathered_apply x3 x4 hr j k]

/-- The Gram matrix of the features over the batch. -/
theorem gramP_apply (x0 : FVec Ideal S4096x2048 .f32) (i j : Fin 2048) :
    Cert.ReferenceIdeal.Read.val_main_v23 (F := Ideal) x0 (ix2 i j)
      = Cert.Interaction.P (fun a n => x0 (ix2 a n)) i j := by
  rw [Read.val_main_v23_apply]
  unfold Cert.Interaction.P
  refine Finset.sum_congr rfl fun k _ => ?_
  rw [Read.val_main_v22_apply]
  have e1 : Read.idx_main_v22 (Read.lidx_main_v23 (ix2 i j) k) = ix2 k i :=
    funext fun a => Fin.ext (by match a with | ⟨0, _⟩ => rfl | ⟨1, _⟩ => rfl)
  have e2 : Read.ridx_main_v23 (ix2 i j) k = ix2 k j :=
    funext fun a => Fin.ext (by match a with | ⟨0, _⟩ => rfl | ⟨1, _⟩ => rfl)
  rw [e1, e2]

/-! ## The mask -/

/-- The signed comparison of two small naturals as 32-bit words is the comparison of the naturals. -/
theorem sge_small (i j : Nat) (hi : i < 2048) (hj : j < 2048) :
    IntOp.cmpi .sge (IntOp.addi (BitVec.ofNat 32 i) 0#32) (BitVec.ofNat 32 j) = if j ≤ i then 1#1 else 0#1 := by
  have hi' : (BitVec.ofNat 32 i).toInt = (i : Int) := by
    have hn : (BitVec.ofNat 32 i).toNat = i := by rw [BitVec.toNat_ofNat]; omega
    rw [BitVec.toInt_eq_toNat_of_lt (by rw [hn]; omega), hn]
  have hj' : (BitVec.ofNat 32 j).toInt = (j : Int) := by
    have hn : (BitVec.ofNat 32 j).toNat = j := by rw [BitVec.toNat_ofNat]; omega
    rw [BitVec.toInt_eq_toNat_of_lt (by rw [hn]; omega), hn]
  show BitVec.ofBool ((BitVec.ofNat 32 j).sle (BitVec.ofNat 32 i + 0#32)) = _
  rw [BitVec.add_zero, BitVec.sle_eq_decide, hi', hj']
  by_cases h : j ≤ i
  · rw [if_pos h, decide_eq_true (by exact_mod_cast h)]; rfl
  · rw [if_neg h, decide_eq_false (by exact_mod_cast h)]; rfl

/-- One over the strict upper triangle, zero on and below the diagonal. -/
theorem mask_apply (i j : Fin 2048) :
    Cert.ReferenceIdeal.Read.val_main_v25 (F := Ideal) (ix2 i j) = if j ≤ i then (0 : EReal) else 1 := by
  rw [Read.val_main_v25_apply, Read.val_main_call0_v4_apply, Read.val_main_call0_v2_apply,
    Read.val_main_call0_v0_apply, Read.val_main_call0_v1_apply, Read.val_main_call0_c_apply,
    Read.val_main_call0_v3_apply, Read.val_main_call0_v5_apply, Read.val_main_call0_cst_apply,
    Read.val_main_v24_apply, Read.val_main_cst_apply]
  show Scalar.select (IntOp.cmpi .sge (IntOp.addi (BitVec.ofNat 32 i.val) 0#32) (BitVec.ofNat 32 j.val))
    (Ideal.ofBits .f32 0x00000000#32) (Ideal.ofBits .f32 0x3F800000#32) = _
  rw [sge_small i.val j.val i.isLt j.isLt, Ideal.ofBits_zero_f32]
  have one : Ideal.ofBits .f32 0x3F800000#32 = 1 := by
    rw [show (1 : EReal) = ((1 : ℝ) : EReal) by norm_cast]
    simp [Ideal.ofBits, Ideal.ieee, -EReal.coe_mul]; norm_num
  rw [one]
  by_cases h : j ≤ i
  · rw [if_pos (show j.val ≤ i.val from h), if_pos h, select_one]
  · rw [if_neg (show ¬ j.val ≤ i.val from h), if_neg h, select_zero]

/-! ## The result -/

theorem result_apply (x0 : FVec Ideal S4096x2048 .f32) (x1 : FVec Ideal S1x2048 .f32) (x2 : FVec Ideal S1 .f32)
    (x3 : FVec Ideal S2048x64x64 .f32) (x4 : IVec S2048 32)
    (hr : ∀ n : Fin 2048, Cert.Interaction.InRange (x4 (ix1 n))) (r : Fin 4096) :
    Cert.ReferenceIdeal.Read.val_main_v30 (F := Ideal) x0 x1 x2 x3 x4 (ix2 r 0)
      = Cert.Interaction.resultR (fun a n => x0 (ix2 a n)) (fun n => x1 (ix2 0 n)) (x2 (ix1 0))
          (Cert.Interaction.latent x3 x4) r := by
  rw [Read.val_main_v30_apply, Read.val_main_v4_apply, Read.val_main_v29_apply, Read.val_main_v28_apply,
    Read.val_main_cst_3_apply, lin_apply, bias_apply]
  unfold Cert.Interaction.resultR Cert.Interaction.interR
  show (_ + _) + (Ideal.ofBits .f32 0x00000000#32 + _) = _
  rw [Ideal.ofBits_zero_f32, sum_idx2]
  congr 2
  refine Finset.sum_congr rfl fun i _ => Finset.sum_congr rfl fun j _ => ?_
  rw [Read.val_main_v27_apply, Read.val_main_v26_apply, gramS_apply x3 x4 hr, gramP_apply, mask_apply]
  rfl

end Cert.ReferenceIdeal.RefValue

end
-- ==== Proof.KernelLatent.lean ====
/-
  The latent matrix the kernel is handed: entry (k, n) is the k-th latent coordinate of feature n for its own field.

  The program broadcasts the field map over the 64 latent coordinates, wraps a negative index by 64, takes along the
  field axis of the table, and keeps the taken entry where the wrapped index lies in 0 … 63 (elsewhere it substitutes
  a not-a-number, a branch no index in range reaches); the result, reshaped to 2048 × 64 and transposed, is the
  kernel's second operand.
-/
import proofs.«400855_j20830591385963_3_alg».proof.Proof.Gen.KernelIdeal.Frame
import proofs.«400855_j20830591385963_3_alg».proof.Proof.Spec
import Idealize.ShloMosaic.Lib.Pipeline.Value
import Idealize.ShloMosaic.Lib.StableHlo.Run
import Idealize.ShloMosaic.Lib.ValueLayout
import Idealize.ShloMosaic.Lib.StableHlo.Predicate

noncomputable section

namespace Cert.KernelIdeal.Latent

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## The second operand as a term of the table and the field map -/

/-- The field map laid along the feature axis and repeated over the 64 latent coordinates. -/
def idxB (f2f : S2048.Idx → BitVec 32) : S2048x1x64.Idx → BitVec 32 :=
  broadcastInDim S2048x1x64 ![0, 1, 2] Facts₀.bcast_S2048x1x1_S2048x1x64_0_1_2
    (broadcastInDim S2048x1x1 ![0] Facts₀.bcast_S2048_S2048x1x1_0 f2f)

/-- The index wrapped: a negative one is moved up by 64. -/
def idxW (f2f : S2048.Idx → BitVec 32) : S2048x1x64.Idx → BitVec 32 :=
  select (cmpi .slt (idxB f2f) (broadcastInDim S2048x1x64 ![] Facts₀.bcast_S_S2048x1x64 (constantI S_ 32 0#32)))
    (addi (idxB f2f) (broadcastInDim S2048x1x64 ![] Facts₀.bcast_S_S2048x1x64 (constantI S_ 32 64#32))) (idxB f2f)

/-- The wrapped indices as the start indices of the take: one index vector of length one per result position. -/
def idxS (f2f : S2048.Idx → BitVec 32) : S2048x1x64x1.Idx → BitVec 32 :=
  shapeCast S2048x1x64x1 (idxW f2f) Facts₀.shapeCasts_S2048x1x64_S2048x1x64x1

/-- Whether a start index lies in 0 … 63. -/
def inb (f2f : S2048.Idx → BitVec 32) : S2048x1x64x1.Idx → BitVec 1 :=
  andi (cmpi .sge (idxS f2f) (broadcastInDim S2048x1x64x1 ![] Facts₀.bcast_S_S2048x1x64x1 (constantI S_ 32 0#32)))
    (cmpi .sle (idxS f2f) (broadcastInDim S2048x1x64x1 ![0, 1, 2, 3] Facts₀.bcast_S1x1x1x1_S2048x1x64x1_0_1_2_3
      (broadcastInDim S1x1x1x1 ![3] Facts₀.bcast_S1_S1x1x1x1_3 (constantI S1 32 63#32))))

/-- The same, and-reduced over the index vector's one component. -/
def mask (f2f : S2048.Idx → BitVec 32) : S2048x1x64.Idx → BitVec 1 :=
  Host.reduce IntOp.andi (inb f2f) (constantI S_ 1 1#1) Facts₀.reducesTo_S2048x1x64x1_S2048x1x64_d3 Facts₀.h_S_

/-- The take along the field axis: the table's entry at the wrapped index where that index is in range, a not-a-number
    elsewhere. -/
def taken (vec : S2048x64x64.Idx → EReal) (f2f : S2048.Idx → BitVec 32) : S2048x1x64.Idx → EReal :=
  select (mask f2f) (Host.gather gather_S2048x64x64_S2048x1x64x1_S2048x1x64_n_1_02_02_1_3_111 vec (idxS f2f))
    (broadcastInDim S2048x1x64 ![] Facts₀.bcast_S_S2048x1x64 (constant (F := Ideal) S_ .f32 0x7FC00000#32))

/-- The kernel's second operand as a term of the table and the field map: the take, reshaped to 2048 × 64 and
    transposed. -/
def vt (vec : S2048x64x64.Idx → EReal) (f2f : S2048.Idx → BitVec 32) : S64x2048.Idx → EReal :=
  transpose S64x2048 [1, 0] (shapeCast S2048x64 (taken vec f2f) Facts₀.shapeCasts_S2048x1x64_S2048x64)
    Facts₀.transposes_S2048x64_S64x2048_1_0

set_option maxRecDepth 16384 in
/-- What the region finds in its second operand is that term of the launch contents of the table and the field map. -/
theorem V_main_v4 (c : Dev nD) :
    (V m c main_v4 : S64x2048.Idx → EReal)
      = vt (m ((c : Thread nD τ).loc main_arg3)) (m ((c : Thread nD τ).loc main_arg4)) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-! ## The indices at a position -/

/-- The broadcast field map reads, at feature n and any latent coordinate, feature n's field. -/
theorem idxB_apply (f2f : S2048.Idx → BitVec 32) (n : Fin 2048) (u : Fin 1) (k : Fin 64) :
    idxB f2f (ix3 n u k) = f2f (ix1 n) := by
  unfold idxB broadcastInDim
  refine congrArg f2f (funext fun a => ?_)
  match a with
  | ⟨0, _⟩ => rfl

/-- The wrapped index there is the wrap of feature n's field. -/
theorem idxW_apply (f2f : S2048.Idx → BitVec 32) (n : Fin 2048) (u : Fin 1) (k : Fin 64) :
    idxW f2f (ix3 n u k) = Cert.Interaction.wrap (f2f (ix1 n)) := by
  show Scalar.select (IntOp.cmpi .slt (idxB f2f (ix3 n u k)) 0#32) (IntOp.addi (idxB f2f (ix3 n u k)) 64#32)
    (idxB f2f (ix3 n u k)) = _
  rw [idxB_apply]
  rfl

/-- And so is the start index. -/
theorem idxS_apply (f2f : S2048.Idx → BitVec 32) (n : Fin 2048) (u : Fin 1) (k : Fin 64) (v : Fin 1) :
    idxS f2f (ix4 n u k v) = Cert.Interaction.wrap (f2f (ix1 n)) := by
  unfold idxS
  refine (shapeCast_apply _ _ (ix4 n u k v) (ix3 n u k) ?_).trans (idxW_apply f2f n u k)
  rw [Shape.rowMajor_val_three, Shape.rowMajor_val_four]
  show (n.val * 1 + u.val) * 64 + k.val = ((n.val * 1 + u.val) * 64 + k.val) * 1 + v.val
  omega

/-! ## The mask -/

/-- A word in 0 … 63 passes both comparisons. -/
theorem inRange_bits (w : BitVec 32) (h0 : 0 ≤ w.toInt) (h1 : w.toInt ≤ 63) :
    IntOp.andi (IntOp.cmpi .sge w 0#32) (IntOp.cmpi .sle w 63#32) = 1#1 := by
  rw [IntOp.andi_eq_one, IntOp.cmpi_sge, IntOp.cmpi_sle]
  have e0 : (0#32 : BitVec 32).toInt = 0 := by decide
  have e1 : (63#32 : BitVec 32).toInt = 63 := by decide
  rw [e0, e1]
  exact ⟨h0, h1⟩

/-- Where feature n's field is in range, the start index passes. -/
theorem inb_apply (f2f : S2048.Idx → BitVec 32) (n : Fin 2048) (u : Fin 1) (k : Fin 64) (v : Fin 1)
    (hr : Cert.Interaction.InRange (f2f (ix1 n))) : inb f2f (ix4 n u k v) = 1#1 := by
  show IntOp.andi (IntOp.cmpi .sge (idxS f2f (ix4 n u k v)) 0#32) (IntOp.cmpi .sle (idxS f2f (ix4 n u k v)) 63#32) = 1#1
  rw [idxS_apply]
  exact inRange_bits _ hr.1 hr.2

/-- A conjunction of ones, from one, is one. -/
theorem foldl_andi_one {ι : Type} (x : ι → BitVec 1) :
    ∀ l : List ι, (∀ i ∈ l, x i = 1#1) → l.foldl (fun r i => IntOp.andi r (x i)) 1#1 = 1#1
  | [], _ => rfl
  | a :: l, h => by
    rw [List.foldl_cons, h a List.mem_cons_self, show IntOp.andi 1#1 1#1 = (1#1 : BitVec 1) from by decide]
    exact foldl_andi_one x l fun i hi => h i (List.mem_cons_of_mem _ hi)

/-- With every field in range the mask is one everywhere. -/
theorem mask_apply (f2f : S2048.Idx → BitVec 32) (hr : ∀ n : Fin 2048, Cert.Interaction.InRange (f2f (ix1 n)))
    (q : S2048x1x64.Idx) : mask f2f q = 1#1 := by
  unfold mask
  rw [Host.reduce_eq_foldl]
  refine foldl_andi_one _ _ fun i _ => ?_
  obtain ⟨a, b, c, d, rfl⟩ : ∃ (a : Fin 2048) (b : Fin 1) (c : Fin 64) (d : Fin 1), i = ix4 a b c d :=
    ⟨i 0, i 1, i 2, i 3, eq_ix4 i⟩
  exact inb_apply f2f a b c d (hr a)

/-! ## The take -/

/-- The take's dimension numbers: the feature and latent axes batch, the field axis is collapsed and addressed. -/
abbrev gd : GatherDims S2048x64x64 S2048x1x64x1 S2048x1x64 :=
  gather_S2048x64x64_S2048x1x64x1_S2048x1x64_n_1_02_02_1_3_111

/-- The take at feature n and latent coordinate k reads the table at (n, the start index clamped into 0 … 63, k): the
    feature and latent axes are batching axes, the field axis is the one the start index addresses. -/
theorem gather_apply (vec : S2048x64x64.Idx → EReal) (idx : S2048x1x64x1.Idx → BitVec 32)
    (n : Fin 2048) (u : Fin 1) (k : Fin 64) (w : Fin 64)
    (hw : min (idx (ix4 n u k (0 : Fin 1))).toInt.toNat 63 = w.val) :
    Host.gather gd vec idx (ix3 n u k) = vec (ix3 n w k) := by
  unfold Host.gather
  refine congrArg vec (funext fun a => Fin.ext ?_)
  have hsi : gd.siIdx (ix3 n u k) ⟨List.idxOf (1 : Fin 3) gd.startIndexMap,
      List.idxOf_lt_length_iff.2 (List.mem_singleton.mpr rfl)⟩ = ix4 n u k (0 : Fin 1) := by
    funext b; refine Fin.ext ?_
    match b with
    | ⟨0, _⟩ => rfl
    | ⟨1, _⟩ => rfl
    | ⟨2, _⟩ => rfl
    | ⟨3, _⟩ => rfl
  match a with
  | ⟨0, _⟩ =>
    show gd.start (ix3 n u k) idx 0 + gd.batchCoord (ix3 n u k) 0 + gd.offCoord (ix3 n u k) 0 = n.val
    rw [gd.start_batching _ idx 0 (by decide), gd.offCoord_eq_zero _ 0 (by decide), Nat.zero_add, Nat.add_zero]
    unfold GatherDims.batchCoord
    rw [dif_pos (show (0 : Fin 3) ∈ gd.operandBatchingDims by decide)]
    rfl
  | ⟨1, _⟩ =>
    show gd.start (ix3 n u k) idx 1 + gd.batchCoord (ix3 n u k) 1 + gd.offCoord (ix3 n u k) 1 = w.val
    rw [gd.batchCoord_eq_zero _ 1 (by decide), gd.offCoord_eq_zero _ 1 (by decide)]
    unfold GatherDims.start
    rw [dif_pos (show (1 : Fin 3) ∈ gd.startIndexMap from List.mem_singleton.mpr rfl), hsi]
    exact hw
  | ⟨2, _⟩ =>
    show gd.start (ix3 n u k) idx 2 + gd.batchCoord (ix3 n u k) 2 + gd.offCoord (ix3 n u k) 2 = k.val
    rw [gd.start_batching _ idx 2 (by decide), gd.offCoord_eq_zero _ 2 (by decide), Nat.zero_add, Nat.add_zero]
    unfold GatherDims.batchCoord
    rw [dif_pos (show (2 : Fin 3) ∈ gd.operandBatchingDims by decide)]
    rfl

/-! ## The second operand at a position -/

/-- A word whose signed reading lies in 0 … 63, clamped into 0 … 63, is itself, and so is its residue mod 64. -/
theorem clamp_eq (w : BitVec 32) (h0 : 0 ≤ w.toInt) (h1 : w.toInt ≤ 63) : min w.toInt.toNat 63 = w.toNat % 64 := by
  have h := BitVec.toInt_eq_toNat_cond w
  have := w.isLt
  split at h <;> omega

/-- With every field in range the take at feature n and latent coordinate k is the table's entry for feature n's own
    field. -/
theorem taken_apply (vec : S2048x64x64.Idx → EReal) (f2f : S2048.Idx → BitVec 32)
    (hr : ∀ n : Fin 2048, Cert.Interaction.InRange (f2f (ix1 n))) (n : Fin 2048) (u : Fin 1) (k : Fin 64) :
    taken vec f2f (ix3 n u k) = vec (ix3 n (Cert.Interaction.field (f2f (ix1 n))) k) := by
  unfold taken
  rw [select_apply, mask_apply f2f hr, select_one]
  refine gather_apply vec _ n u k _ ?_
  rw [idxS_apply]
  exact clamp_eq _ (hr n).1 (hr n).2

/-- The term at (k, n) is entry k of feature n's latent vector for its own field. -/
theorem vt_ix2 (vec : S2048x64x64.Idx → EReal) (f2f : S2048.Idx → BitVec 32)
    (hr : ∀ n : Fin 2048, Cert.Interaction.InRange (f2f (ix1 n))) (k : Fin 64) (n : Fin 2048) :
    vt vec f2f (ix2 k n) = Cert.Interaction.latent vec f2f k n := by
  unfold vt
  refine (transpose_ix2_apply _ _ k n).trans ?_
  refine (shapeCast_apply _ _ (ix2 n k) (ix3 n (0 : Fin 1) k) ?_).trans (taken_apply vec f2f hr n 0 k)
  rw [Shape.rowMajor_val_three, Shape.rowMajor_val_two]
  show (n.val * 1 + 0) * 64 + k.val = n.val * 64 + k.val
  omega

/-- The kernel's second operand at (k, n), with every field in range once wrapped, is the latent entry. -/
theorem vt_apply (c : Dev nD)
    (hr : ∀ n : Fin 2048, Cert.Interaction.InRange ((m ((c : Thread nD τ).loc main_arg4) : S2048.Idx → BitVec 32) (ix1 n)))
    (k : Fin 64) (n : Fin 2048) :
    (V m c main_v4 : S64x2048.Idx → EReal) (ix2 k n)
      = Cert.Interaction.latent (m ((c : Thread nD τ).loc main_arg3)) (m ((c : Thread nD τ).loc main_arg4)) k n := by
  rw [V_main_v4]
  exact vt_ix2 _ _ hr k n

end Cert.KernelIdeal.Latent

end
-- ==== Proof.KernelPieces.lean ====
/-
  What one run of the kernel body leaves in its two result tiles and its two accumulators, case by case, as the
  body's own arithmetic terms of what it loaded.

  The body has three control cases over the inner grid coordinate s: the first block of a half (s = 0) resets both
  accumulators and the interaction tile before it accumulates; a middle block only accumulates; the last block
  (s = 3) accumulates and then writes the half's share into the interaction tile.  In every case the linear tile is
  the block's product with the weight row.  An accumulator that is reset and then updated in the same run holds the
  update of the reset value; the interaction tile of the last block is computed from the accumulators as just updated.
-/
import proofs.«400855_j20830591385963_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

variable (c : Dev nD) (i : grid0.Coords) (a2 : Memref sig .tc .vmem S512x2048 .f32) (h2 : a2.IsWhole)
  (a3 : Memref sig .tc .vmem S64x2048 .f32) (h3 : a3.IsWhole) (a4 : Memref sig .tc .vmem S1x2048 .f32) (h4 : a4.IsWhole)
  (a5 : Memref sig .tc .vmem S8x128 .f32) (h5 : a5.IsWhole) (a6 : Memref sig .tc .vmem S512x1 .f32) (h6 : a6.IsWhole)
  (a7 : Memref sig .tc .vmem S1x1 .f32) (h7 : a7.IsWhole) (a8 : Memref sig .tc .vmem S1x2048 .f32) (h8 : a8.IsWhole)
  (x0 : Vec F S512x2048 .f32) (x1 : Vec F S64x2048 .f32) (x2 : Vec F S1x2048 .f32)

/-! ## A middle block (neither first nor last of its half) -/

theorem accY_B (hc0 : ¬cond0_0 i) (hc1 : ¬cond0_1 i) (s0 : Vec F S1x1 .f32) (s1 : Vec F S1x2048 .f32) :
    sout0_B_0 c i a2 h2 a3 h3 a4 h4 a5 h5 a6 h6 a7 h7 a8 h8 hc0 hc1 x0 x1 x2 s0 s1 = k0_pay6 x0 x1 s0 := by
  unfold sout0_B_0
  rw [View.read_writes_eq_canon _ _ _ (scover0_B_0 c i a2 h2 a3 h3 a4 h4 a5 h5 a6 h6 a7 h7 a8 h8 hc0 hc1 x0 x1 x2 s0 s1)]
  unfold kernelRun0_B
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

theorem accX_B (hc0 : ¬cond0_0 i) (hc1 : ¬cond0_1 i) (s0 : Vec F S1x1 .f32) (s1 : Vec F S1x2048 .f32) :
    sout0_B_1 c i a2 h2 a3 h3 a4 h4 a5 h5 a6 h6 a7 h7 a8 h8 hc0 hc1 x0 x1 x2 s0 s1 = k0_pay7 x0 s1 := by
  unfold sout0_B_1
  rw [View.read_writes_eq_canon _ _ _ (scover0_B_1 c i a2 h2 a3 h3 a4 h4 a5 h5 a6 h6 a7 h7 a8 h8 hc0 hc1 x0 x1 x2 s0 s1)]
  unfold kernelRun0_B
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

theorem lin_B (hc0 : ¬cond0_0 i) (hc1 : ¬cond0_1 i) (s0 : Vec F S1x1 .f32) (s1 : Vec F S1x2048 .f32) :
    out0_B_4 c i a2 h2 a3 h3 a4 h4 a5 h5 a6 h6 a7 h7 a8 h8 hc0 hc1 x0 x1 x2 s0 s1 = k0_pay8 x0 x2 := by
  unfold out0_B_4
  rw [View.read_writes_eq_canon _ _ _ (cover0_B_4 c i a2 h2 a3 h3 a4 h4 a5 h5 a6 h6 a7 h7 a8 h8 hc0 hc1 x0 x1 x2 s0 s1)]
  unfold kernelRun0_B
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

/-! ## The last block of a half -/

theorem accY_C (hc0 : ¬cond0_0 i) (hc1 : cond0_1 i) (s0 : Vec F S1x1 .f32) (s1 : Vec F S1x2048 .f32) :
    sout0_C_0 c i a2 h2 a3 h3 a4 h4 a5 h5 a6 h6 a7 h7 a8 h8 hc0 hc1 x0 x1 x2 s0 s1 = k0_pay6 x0 x1 s0 := by
  unfold sout0_C_0
  rw [View.read_writes_eq_canon _ _ _ (scover0_C_0 c i a2 h2 a3 h3 a4 h4 a5 h5 a6 h6 a7 h7 a8 h8 hc0 hc1 x0 x1 x2 s0 s1)]
  unfold kernelRun0_C
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

theorem accX_C (hc0 : ¬cond0_0 i) (hc1 : cond0_1 i) (s0 : Vec F S1x1 .f32) (s1 : Vec F S1x2048 .f32) :
    sout0_C_1 c i a2 h2 a3 h3 a4 h4 a5 h5 a6 h6 a7 h7 a8 h8 hc0 hc1 x0 x1 x2 s0 s1 = k0_pay7 x0 s1 := by
  unfold sout0_C_1
  rw [View.read_writes_eq_canon _ _ _ (scover0_C_1 c i a2 h2 a3 h3 a4 h4 a5 h5 a6 h6 a7 h7 a8 h8 hc0 hc1 x0 x1 x2 s0 s1)]
  unfold kernelRun0_C
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

theorem lin_C (hc0 : ¬cond0_0 i) (hc1 : cond0_1 i) (s0 : Vec F S1x1 .f32) (s1 : Vec F S1x2048 .f32) :
    out0_C_4 c i a2 h2 a3 h3 a4 h4 a5 h5 a6 h6 a7 h7 a8 h8 hc0 hc1 x0 x1 x2 s0 s1 = k0_pay8 x0 x2 := by
  unfold out0_C_4
  rw [View.read_writes_eq_canon _ _ _ (cover0_C_4 c i a2 h2 a3 h3 a4 h4 a5 h5 a6 h6 a7 h7 a8 h8 hc0 hc1 x0 x1 x2 s0 s1)]
  unfold kernelRun0_C
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz]

theorem tile_C (hc0 : ¬cond0_0 i) (hc1 : cond0_1 i) (s0 : Vec F S1x1 .f32) (s1 : Vec F S1x2048 .f32) :
    out0_C_3 c i a2 h2 a3 h3 a4 h4 a5 h5 a6 h6 a7 h7 a8 h8 hc0 hc1 x0 x1 x2 s0 s1 = k0_pay1 (k0_pay5 x1) (k0_pay7 x0 s1) (k0_pay6 x0 x1 s0) := by
  unfold out0_C_3
  rw [View.read_writes_eq_canon _ _ _ (cover0_C_3 c i a2 h2 a3 h3 a4 h4 a5 h5 a6 h6 a7 h7 a8 h8 hc0 hc1 x0 x1 x2 s0 s1)]
  unfold kernelRun0_C
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz, View.readCov_unit_zero (S := S1x2048) _ hz, View.readCov_unit_zero (S := S1x1) _ hz]

/-! ## The first block of a half -/

theorem accY_A (hc0 : cond0_0 i) (hc1 : ¬cond0_1 i) :
    sout0_A_0 c i a2 h2 a3 h3 a4 h4 a5 h5 a6 h6 a7 h7 a8 h8 hc0 hc1 x0 x1 x2 = k0_pay6 x0 x1 (k0_pay2 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S1x1) hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz, View.readCov_unit_zero (S := S1x2048) _ hz, View.readCov_unit_zero (S := S1x1) _ hz]

theorem accX_A (hc0 : cond0_0 i) (hc1 : ¬cond0_1 i) :
    sout0_A_1 c i a2 h2 a3 h3 a4 h4 a5 h5 a6 h6 a7 h7 a8 h8 hc0 hc1 x0 x1 x2 = k0_pay7 x0 (k0_pay3 (F := F)) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1x2048) hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz, View.readCov_unit_zero (S := S1x2048) _ hz, View.readCov_unit_zero (S := S1x1) _ hz]

theorem lin_A (hc0 : cond0_0 i) (hc1 : ¬cond0_1 i) :
    out0_A_4 c i a2 h2 a3 h3 a4 h4 a5 h5 a6 h6 a7 h7 a8 h8 hc0 hc1 x0 x1 x2 = k0_pay8 x0 x2 := by
  unfold out0_A_4
  rw [View.read_writes_eq_canon _ _ _ (cover0_A_4 c i a2 h2 a3 h3 a4 h4 a5 h5 a6 h6 a7 h7 a8 h8 hc0 hc1 x0 x1 x2)]
  unfold kernelRun0_A
  dsimp only
  sl_unfold_words
  rw [View.canon_unit_zero hz]
  simp only [View.readAt_eq_ld, h2.read_unread, h3.read_unread, h4.read_unread, h7.read_unread, h8.read_unread,
    View.ld_unit_zero (S := S512x2048) hz, View.ld_unit_zero (S := S64x2048) hz, View.ld_unit_zero (S := S1x2048) hz,
    View.ld_unit_zero (S := S1x1) hz, View.readCov_unit_zero (S := S1x2048) _ hz, View.readCov_unit_zero (S := S1x1) _ hz]

end Cert.KernelIdeal.Pieces

end
-- ==== Proof.KernelAcc.lean ====
/-
  The two accumulators point by point.

  The grid has eight points t = 4p + s (half p, block s).  At the first block of a half both accumulators restart from
  their reset values; at every other block they grow from what the point before left.  After point t they therefore
  hold the running update over the blocks 4p … t of t's half; the linear tile of point t is the product of its own
  block with the weight row, and the interaction tile of a half's last block is computed from the accumulators as that
  block leaves them.
-/
import proofs.«400855_j20830591385963_3_alg».proof.Proof.KernelPieces

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- Point t's block of the batch, the latent matrix and the weight row, as the body loads them. -/
abbrev xblk (c : Dev nD) (t : Fin cfg0.N) : Vec F S512x2048 .f32 := iblk m c 0 t
abbrev vtblk (c : Dev nD) (t : Fin cfg0.N) : Vec F S64x2048 .f32 := iblk m c 1 t
abbrev wblk (c : Dev nD) (t : Fin cfg0.N) : Vec F S1x2048 .f32 := iblk m c 2 t

/-- The two accumulators after point n: restarted at the first block of a half, else grown from point n − 1. -/
def accAt (c : Dev nD) : (n : ℕ) → n < cfg0.N → Vec F S1x1 .f32 × Vec F S1x2048 .f32
  | 0, h => (k0_pay6 (xblk m c ⟨0, h⟩) (vtblk m c ⟨0, h⟩) k0_pay2, k0_pay7 (xblk m c ⟨0, h⟩) k0_pay3)
  | n + 1, h =>
    if (n + 1) % 4 = 0 then
      (k0_pay6 (xblk m c ⟨n + 1, h⟩) (vtblk m c ⟨n + 1, h⟩) k0_pay2, k0_pay7 (xblk m c ⟨n + 1, h⟩) k0_pay3)
    else
      (k0_pay6 (xblk m c ⟨n + 1, h⟩) (vtblk m c ⟨n + 1, h⟩) (accAt c n (Nat.lt_of_succ_lt h)).1,
        k0_pay7 (xblk m c ⟨n + 1, h⟩) (accAt c n (Nat.lt_of_succ_lt h)).2)

theorem accAt_first (c : Dev nD) (n : ℕ) (h : n < cfg0.N) (h0 : n % 4 = 0) :
    accAt m c n h = (k0_pay6 (xblk m c ⟨n, h⟩) (vtblk m c ⟨n, h⟩) k0_pay2, k0_pay7 (xblk m c ⟨n, h⟩) k0_pay3) := by
  cases n with
  | zero => rfl
  | succ n => simp only [accAt, h0, if_true]

theorem accAt_next (c : Dev nD) (n : ℕ) (h : n + 1 < cfg0.N) (h0 : ¬(n + 1) % 4 = 0) :
    accAt m c (n + 1) h
      = (k0_pay6 (xblk m c ⟨n + 1, h⟩) (vtblk m c ⟨n + 1, h⟩) (accAt m c n (Nat.lt_of_succ_lt h)).1,
          k0_pay7 (xblk m c ⟨n + 1, h⟩) (accAt m c n (Nat.lt_of_succ_lt h)).2) := by
  simp only [accAt, h0, if_false]

/-- The frame's record of the accumulators after each point is that running update: by induction on the point. -/
theorem scratch_eq (c : Dev nD) : ∀ (n : ℕ) (h : n < cfg0.N), (outsAt0 m c n h).2.2 = accAt m c n h
  | 0, h => by
    rw [outsAt0_A m c ⟨0, h⟩ rfl (show ¬(0 : ℕ) % 4 = 3 by decide)]
    dsimp only
    rw [Pieces.accY_A, Pieces.accX_A]
    rfl
  | n + 1, h => by
    have hN : cfg0.N = 8 := N_0
    by_cases h0 : (n + 1) % 4 = 0
    · have h1 : ¬(n + 1) % 4 = 3 := by omega
      rw [outsAt0_A m c ⟨n + 1, h⟩ h0 h1]
      dsimp only
      rw [Pieces.accY_A, Pieces.accX_A, accAt_first m c (n + 1) h h0]
    · have ih := scratch_eq c n (Nat.lt_of_succ_lt h)
      by_cases h1 : (n + 1) % 4 = 3
      · rw [outsAt0_C m c ⟨n + 1, h⟩ h0 h1]
        dsimp only
        rw [Pieces.accY_C, Pieces.accX_C, accAt_next m c n h h0]
        show (k0_pay6 _ _ (outsAt0 m c n _).2.2.1, k0_pay7 _ (outsAt0 m c n _).2.2.2) = _
        rw [ih]
      · rw [outsAt0_B m c ⟨n + 1, h⟩ h0 h1]
        dsimp only
        rw [Pieces.accY_B, Pieces.accX_B, accAt_next m c n h h0]
        show (k0_pay6 _ _ (outsAt0 m c n _).2.2.1, k0_pay7 _ (outsAt0 m c n _).2.2.2) = _
        rw [ih]

/-- The linear tile after point t: its block's product with the weight row, in every case. -/
theorem lin_eq (c : Dev nD) (t : Fin cfg0.N) :
    (outsAt0 m c t.val t.isLt).2.1 = k0_pay8 (xblk m c t) (wblk m c t) := by
  have hN : cfg0.N = 8 := N_0
  by_cases h0 : t.val % 4 = 0
  · have h1 : ¬t.val % 4 = 3 := by omega
    rw [outsAt0_A m c t h0 h1]
    dsimp only
    rw [Pieces.lin_A]
  · by_cases h1 : t.val % 4 = 3
    · rw [outsAt0_C m c t h0 h1]
      dsimp only
      rw [Pieces.lin_C]
    · rw [outsAt0_B m c t h0 h1]
      dsimp only
      rw [Pieces.lin_B]

/-- The interaction tile after the last block of a half, from the accumulators as that block leaves them. -/
theorem tile_eq (c : Dev nD) (t : Fin cfg0.N) (h1 : t.val % 4 = 3) :
    (outsAt0 m c t.val t.isLt).1
      = k0_pay1 (k0_pay5 (vtblk m c t)) (accAt m c t.val t.isLt).2 (accAt m c t.val t.isLt).1 := by
  have h0 : ¬t.val % 4 = 0 := by omega
  obtain ⟨n, h⟩ := t
  cases n with
  | zero => exact absurd h1 (show ¬(0 : ℕ) % 4 = 3 by decide)
  | succ n =>
    rw [outsAt0_C m c ⟨n + 1, h⟩ h0 h1]
    dsimp only
    rw [Pieces.tile_C, accAt_next m c n h h0]
    have ih := scratch_eq m c n (Nat.lt_of_succ_lt h)
    show k0_pay1 _ (k0_pay7 _ (outsAt0 m c n _).2.2.2) (k0_pay6 _ _ (outsAt0 m c n _).2.2.1) = _
    rw [ih]

end Cert.KernelIdeal.Acc

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.KernelPayloads.lean ====
/-
  The body's arithmetic at the ideal values, entry by entry.

  From a 512-row block x0 of the batch, the latent matrix x1 (64 × 2048, entry (k, n) the k-th latent coordinate of
  feature n), the weight row x2 and the accumulators' previous contents:
  the linear tile's row r is ∑ₙ x0 r n · x2 n; the first accumulator grows by ∑_{r,k} (∑ₙ x0 r n · x1 k n)², the
  second, at feature n, by ∑ᵣ (x0 r n)²; and the interaction tile is ½ · (a7 − ∑ₙ a8 n · ∑ₖ (x1 k n)²) at its
  corner (0, 0) and zero elsewhere.
-/
import proofs.«400855_j20830591385963_3_alg».proof.Proof.Gen.KernelIdeal.Skeleton
import proofs.«400855_j20830591385963_3_alg».proof.Proof.Spec
import proofs.«400855_j20830591385963_3_alg».proof.Proof.LibPlainDot
import Idealize.ShloMosaic.Lib.ValueLayout

noncomputable section

namespace Cert.KernelIdeal.Payloads

open Idealize.ShloMosaic Idealize.ShloMosaic.ValueIdx Cert.KernelIdeal Cert.KernelIdeal.Gen

/-! ## The tools: a product, a column sum, a total sum, one half, the corner mask -/

/-- A kernel's product with the right operand contracted on its last axis, into the zero accumulator, at (r, c). -/
theorem matmul_transposedRhs_zero_ix2 (M K N : Nat) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, (lhs (ix2 r k) : EReal) * (rhs (ix2 c k) : EReal) :=
  (Ideal.matmul_constant_zero_apply _ prec lhs rhs _).trans
    ((Ideal.dotGeneral_apply _ prec HostSchedule.single lhs rhs _).symm.trans
      (Cert.Lib.PlainDot.dotGeneral_transposedRhs_ix2 M K N prec HostSchedule.single lhs rhs r c))

/-- The index of a matrix that reduces, along the rows, to column n, with row k put back, is (k, n). -/
theorem lift_rows (M N : Nat) (h : (⟨2, ![M, N]⟩ : Shape).Reduces [0] ⟨1, ![N]⟩) (n : Fin N) (k : Fin M) :
    h.lift (ix1 n) k = ix2 k n :=
  funext fun c => Fin.ext (by match c with | ⟨0, _⟩ => rfl | ⟨1, _⟩ => rfl)

/-- The sum of a matrix along its rows, at column n. -/
theorem colSum_apply (M N : Nat) (src : FVec Ideal ⟨2, ![M, N]⟩ .f32) (h : (⟨2, ![M, N]⟩ : Shape).Reduces [0] ⟨1, ![N]⟩)
    (hφ : FKind.Formats .f32) (hacc : (0x00000000#32 : BitVec 32) = FKind.add.neutral .f32 hφ) (n : Fin N) :
    multiReduction .add [0] ⟨1, ![N]⟩ src 0x00000000#32 h hφ hacc (ix1 n) = ∑ k : Fin M, src (ix2 k n) :=
  (Ideal.multiReduction_add_single src _ h hφ hacc (ix1 n)).trans
    (Finset.sum_congr rfl fun k _ => congrArg src (lift_rows M N h n k))

/-- A shape cast keeps the sum of all entries. -/
theorem sum_shapeCast {s t : Shape} (x : s.Idx → EReal) (h : s.ShapeCasts t) :
    ∑ j : t.Idx, shapeCast t x h j = ∑ k : s.Idx, x k :=
  Equiv.sum_comp (Shape.reshapeEquiv h) x

/-- The one entry of a reduction over every non-unit axis, cast to 1 × 1 × 1 and extracted: the sum of all the source's entries. -/
theorem extract_total {s : Shape} {axes : List (Fin s.rank)} (src : FVec Ideal s .f32) (h : s.Reduces axes S1)
    (hφ : FKind.Formats .f32) (hacc : (0x00000000#32 : BitVec 32) = FKind.add.neutral .f32 hφ)
    (hc : S1.ShapeCasts S1x1x1) (hp : ∀ a, (![0, 0, 0] : Fin 3 → Nat) a < S1x1x1.size a) :
    extractAt ![0, 0, 0] (shapeCast S1x1x1 (multiReduction .add axes S1 src 0x00000000#32 h hφ hacc) hc) hp = ∑ i : s.Idx, src i :=
  Ideal.multiReduction_add_total src _ h (by decide) hφ hacc _

/-- The pattern 0x3F000000 is one half. -/
theorem ofBits_half : Ideal.ofBits .f32 0x3F000000#32 = ((1 / 2 : ℝ) : EReal) := by
  simp [Ideal.ofBits, Ideal.ieee]
  rw [← EReal.coe_mul]
  exact congrArg _ (by norm_num)

/-- A coordinate below 2³², as a 32-bit word, compares equal to the zero word exactly when it is zero. -/
theorem cmpi_eq_zero (n : Nat) (hn : n < 2 ^ 32) :
    IntOp.cmpi .eq (BitVec.ofNat 32 n) 0#32 = if n = 0 then 1#1 else 0#1 := by
  by_cases h : n = 0
  · subst h; rfl
  · rw [if_neg h]
    have hne : BitVec.ofNat 32 n ≠ 0#32 := fun e => h (by
      have := congrArg BitVec.toNat e
      simp only [BitVec.toNat_ofNat] at this
      rw [Nat.mod_eq_of_lt hn] at this
      exact this)
    unfold IntOp.cmpi
    show BitVec.ofBool (BitVec.ofNat 32 n == 0#32) = 0#1
    rw [beq_eq_false_iff_ne.mpr hne]
    rfl

/-- The corner mask as a number: the conjunction of the two comparisons, widened to a word and read signed, is 1 at
    (0, 0) and 0 elsewhere. -/
theorem mask_val (i : Fin 8) (j : Fin 128) :
    (FloatOps.sitofp (F := Ideal) .f32
        ((IntOp.andi (IntOp.cmpi .eq (BitVec.ofNat 32 i.val) 0#32) (IntOp.cmpi .eq (BitVec.ofNat 32 j.val) 0#32)).setWidth 32) : EReal)
      = if i.val = 0 ∧ j.val = 0 then 1 else 0 := by
  rw [cmpi_eq_zero i.val (by have := i.isLt; omega), cmpi_eq_zero j.val (by have := j.isLt; omega)]
  show (((BitVec.toInt _ : ℤ) : ℝ) : EReal) = _
  by_cases hi : i.val = 0
  · by_cases hj : j.val = 0
    · rw [if_pos hi, if_pos hj, if_pos (show i.val = 0 ∧ j.val = 0 from ⟨hi, hj⟩)]
      have : ((IntOp.andi 1#1 1#1).setWidth 32 : BitVec 32).toInt = 1 := by decide
      rw [this]; simp
    · rw [if_pos hi, if_neg hj, if_neg (show ¬(i.val = 0 ∧ j.val = 0) from fun h => hj h.2)]
      have : ((IntOp.andi 1#1 0#1).setWidth 32 : BitVec 32).toInt = 0 := by decide
      rw [this]; simp
  · rw [if_neg hi, if_neg (show ¬(i.val = 0 ∧ j.val = 0) from fun h => hi h.1)]
    have : ∀ b : BitVec 1, ((IntOp.andi 0#1 b).setWidth 32 : BitVec 32).toInt = 0 := by decide
    rw [this]; simp

/-! ## The payloads -/

theorem reset7_apply : k0_pay2 (F := Ideal) (ix2 0 0) = 0 := by
  unfold k0_pay2
  rw [shapeCast_self]
  exact Ideal.ofBits_zero_f32

theorem reset8_apply (n : Fin 2048) : k0_pay3 (F := Ideal) (ix2 0 n) = 0 := by
  unfold k0_pay3
  rw [shapeCast_self]
  exact Ideal.ofBits_zero_f32

theorem latent_id (v4 : Vec Ideal S64x2048 .f32) : k0_pay5 v4 = v4 := by
  unfold k0_pay5
  exact shapeCast_self _ _

theorem lin_apply (x0 : Vec Ideal S512x2048 .f32) (x2 : Vec Ideal S1x2048 .f32) (r : Fin 512) :
    k0_pay8 x0 x2 (ix2 r 0) = ∑ n : Fin 2048, x0 (ix2 r n) * x2 (ix2 0 n) := by
  unfold k0_pay8
  exact matmul_transposedRhs_zero_ix2 512 2048 1 none x0 x2 r 0

theorem accY_apply (x0 : Vec Ideal S512x2048 .f32) (x1 : Vec Ideal S64x2048 .f32) (s0 : Vec Ideal S1x1 .f32) :
    k0_pay6 x0 x1 s0 (ix2 0 0)
      = s0 (ix2 0 0) + ∑ r : Fin 512, ∑ k : Fin 64,
          (∑ n : Fin 2048, x0 (ix2 r n) * x1 (ix2 k n)) * (∑ n : Fin 2048, x0 (ix2 r n) * x1 (ix2 k n)) := by
  unfold k0_pay6
  rw [shapeCast_self, latent_id]
  refine congrArg (s0 (ix2 0 0) + ·) ?_
  -- the extracted scalar is the sum of every squared entry of the 512 × 64 product, taken row by row
  refine (extract_total _ _ _ _ _ _).trans ?_
  refine (sum_shapeCast _ _).trans ?_
  refine (sum_idx2 _).trans ?_
  refine Finset.sum_congr rfl fun r _ => Finset.sum_congr rfl fun k _ => ?_
  have e := matmul_transposedRhs_zero_ix2 512 2048 64 (φ₁ := .f32) (φ₂ := .f32) (some .fp32) x0 x1 r k
  exact congrArg₂ (fun a b : EReal => a * b) e e

theorem accX_apply (x0 : Vec Ideal S512x2048 .f32) (s1 : Vec Ideal S1x2048 .f32) (n : Fin 2048) :
    k0_pay7 x0 s1 (ix2 0 n) = s1 (ix2 0 n) + ∑ r : Fin 512, x0 (ix2 r n) * x0 (ix2 r n) := by
  unfold k0_pay7
  rw [shapeCast_self]
  refine congrArg (s1 (ix2 0 n) + ·) ?_
  refine (shapeCast_a_1a_apply _ _ 0 n).trans ?_
  exact colSum_apply 512 2048 (mulf x0 x0) _ _ _ n

theorem tile_apply (v5 : FVec Ideal S64x2048 .f32) (a8 : Vec Ideal S1x2048 .f32) (a7 : Vec Ideal S1x1 .f32)
    (i : Fin 8) (j : Fin 128) :
    k0_pay1 v5 a8 a7 (ix2 i j)
      = (Cert.Interaction.half * (a7 (ix2 0 0)
            - ∑ n : Fin 2048, a8 (ix2 0 n) * ∑ k : Fin 64, v5 (ix2 k n) * v5 (ix2 k n)))
          * (if i.val = 0 ∧ j.val = 0 then 1 else 0) := by
  unfold k0_pay1
  refine congrArg₂ (fun a b : EReal => a * b) ?_ ?_
  · -- the broadcast 1 × 1 value, read at its one index
    refine (broadcastTo_apply _ _ (ix2 i j) (ix2 0 0) fun a => by match a with | ⟨0, _⟩ => rfl | ⟨1, _⟩ => rfl).trans ?_
    refine congrArg₂ (fun a b : EReal => a * b) ofBits_half ?_
    refine congrArg (a7 (ix2 0 0) - ·) ?_
    -- the extracted scalar is the sum over the features of a8 n times the squared norm of column n
    refine (extract_total _ _ _ _ _ _).trans ?_
    refine (sum_shapeCast _ _).trans ?_
    refine (sum_idx2 _).trans ?_
    refine (Fin.sum_univ_one _).trans ?_
    refine Finset.sum_congr rfl fun n _ => ?_
    refine congrArg (a8 (ix2 0 n) * ·) ?_
    refine (shapeCast_a_1a_apply _ _ 0 n).trans ?_
    exact colSum_apply 64 2048 (mulf v5 v5) _ _ _ n
  · -- the mask reads the two coordinates
    show FloatOps.sitofp .f32 ((IntOp.andi (IntOp.cmpi .eq (iota .tc S8x128 32 [0] _ (ix2 i j)) 0#32)
        (IntOp.cmpi .eq (iota .tc S8x128 32 [1] _ (ix2 i j)) 0#32)).setWidth 32) = _
    rw [iota_single_apply, iota_single_apply]
    exact mask_val i j

theorem zero_tile_apply (i : Fin 8) (j : Fin 128) : k0_pay4 (F := Ideal) (ix2 i j) = 0 := by
  unfold k0_pay4
  exact Ideal.ofBits_zero_f32

end Cert.KernelIdeal.Payloads

end
-- ==== Proof.KernelFinal.lean ====
/-
  The two arrays the kernel leaves, as the formulas of the specification.

  Point t = 4p + s of the grid loads rows 512 t … 512 t + 511 of the batch (the whole latent matrix and weight row at
  every point), writes rows 512 t … of the linear array, and — at the last block of half p only — the 8 × 128 tile
  at rows 8 p … 8 p + 7 of the interaction array.  Reading the body's arithmetic at the ideal values, the linear array
  holds ∑ₙ X r n · Wt n in row r, the accumulators after the last block of half p hold the block-ordered sums acc7, acc8
  of the specification, and the interaction array holds `tile`.
-/
import proofs.«400855_j20830591385963_3_alg».proof.Proof.KernelAcc
import proofs.«400855_j20830591385963_3_alg».proof.Proof.KernelPayloads

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Interaction

variable (m : (ℓ : Loc nD τ sig) → Buf (Elt Ideal) ℓ)

/-- The batch, the weight row and the latent matrix as the kernel finds them, by coordinates. -/
def X (c : Dev nD) : Fin 4096 → Fin 2048 → EReal :=
  fun a n => (m ((c : Thread nD τ).loc main_arg0) : S4096x2048.Idx → EReal) (ix2 a n)
def Wt (c : Dev nD) : Fin 2048 → EReal :=
  fun n => (m ((c : Thread nD τ).loc main_arg1) : S1x2048.Idx → EReal) (ix2 0 n)
def VT (c : Dev nD) : Fin 64 → Fin 2048 → EReal :=
  fun k n => (V m c main_v4 : S64x2048.Idx → EReal) (ix2 k n)

/-- Where each window's block sits at point t: the batch and the linear array move with t, the interaction array
    with the half t / 4, the latent matrix and the weight row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ win0_4.index t (0 : Fin 2) = t.val ∧ win0_4.index t (1 : Fin 2) = 0 :=
  (by decide +kernel : ∀ t : Fin grid0.N, _)

theorem xblk_apply (c : Dev nD) (t : Fin cfg0.N) (r : Fin 512) (n : Fin 2048) (h : t.val * 512 + r.val < 4096) :
    Acc.xblk m c t (ix2 r n) = X m c ⟨t.val * 512 + r.val, h⟩ n := by
  obtain ⟨e0, e1, -⟩ := idx_facts t
  unfold Acc.xblk iblk
  rw [View.read_apply]
  show V m c main_arg0 _ = _
  rw [V_main_arg0]
  unfold X
  congr 1
  funext a
  apply Fin.ext
  match a with
  | ⟨0, _⟩ => show win0_0.index t (0 : Fin 2) * 512 + 1 * r.val = t.val * 512 + r.val; rw [e0]; omega
  | ⟨1, _⟩ => show win0_0.index t (1 : Fin 2) * 2048 + 1 * n.val = n.val; rw [e1]; omega

theorem vtblk_apply (c : Dev nD) (t : Fin cfg0.N) (k : Fin 64) (n : Fin 2048) :
    Acc.vtblk m c t (ix2 k n) = VT m c k n := by
  obtain ⟨-, -, e0, e1, -⟩ := idx_facts t
  unfold Acc.vtblk iblk
  rw [View.read_apply]
  show V m c main_v4 _ = _
  unfold VT
  congr 1
  funext a
  apply Fin.ext
  match a with
  | ⟨0, _⟩ => show win0_1.index t (0 : Fin 2) * 64 + 1 * k.val = k.val; rw [e0]; omega
  | ⟨1, _⟩ => show win0_1.index t (1 : Fin 2) * 2048 + 1 * n.val = n.val; rw [e1]; omega

theorem wblk_apply (c : Dev nD) (t : Fin cfg0.N) (n : Fin 2048) :
    Acc.wblk m c t (ix2 0 n) = Wt m c n := by
  obtain ⟨-, -, -, -, e0, e1, -⟩ := idx_facts t
  unfold Acc.wblk iblk
  rw [View.read_apply]
  show V m c main_arg1 _ = _
  rw [V_main_arg1]
  unfold Wt
  congr 1
  funext a
  apply Fin.ext
  match a with
  | ⟨0, _⟩ => show win0_2.index t (0 : Fin 2) * 1 + 1 * 0 = 0; rw [e0]
  | ⟨1, _⟩ => show win0_2.index t (1 : Fin 2) * 2048 + 1 * n.val = n.val; rw [e1]; omega

/-! ## The accumulators after the last block of a half -/

/-- Point 4p + s of the grid. -/
def pt (p : Fin 2) (s : Fin 4) : Fin cfg0.N :=
  ⟨p.val * 4 + s.val, by have := p.isLt; have := s.isLt; rw [show cfg0.N = 8 from N_0]; omega⟩

/-- What point t's block adds to the first accumulator, and to the second at feature n. -/
def addY (c : Dev nD) (t : Fin cfg0.N) : EReal :=
  ∑ r : Fin 512, ∑ k : Fin 64,
    (∑ n : Fin 2048, Acc.xblk m c t (ix2 r n) * Acc.vtblk m c t (ix2 k n))
      * (∑ n : Fin 2048, Acc.xblk m c t (ix2 r n) * Acc.vtblk m c t (ix2 k n))
def addX (c : Dev nD) (t : Fin cfg0.N) (n : Fin 2048) : EReal :=
  ∑ r : Fin 512, Acc.xblk m c t (ix2 r n) * Acc.xblk m c t (ix2 r n)

theorem row_lt (t : Fin cfg0.N) (r : Fin 512) : t.val * 512 + r.val < 4096 := by
  have := t.isLt; have hN : cfg0.N = 8 := N_0; have := r.isLt; omega

theorem xblk_row (c : Dev nD) (p : Fin 2) (s : Fin 4) (r : Fin 512) (n : Fin 2048) :
    Acc.xblk m c (pt p s) (ix2 r n) = X m c (row p s r) n :=
  xblk_apply m c (pt p s) r n (row_lt (pt p s) r)

theorem addY_eq (c : Dev nD) (p : Fin 2) (s : Fin 4) : addY m c (pt p s) = q7 (X m c) (VT m c) p s := by
  unfold addY q7 y
  refine Finset.sum_congr rfl fun r _ => Finset.sum_congr rfl fun k _ => ?_
  have e : ∀ n : Fin 2048, Acc.xblk m c (pt p s) (ix2 r n) * Acc.vtblk m c (pt p s) (ix2 k n)
      = X m c (row p s r) n * VT m c k n := fun n => by rw [xblk_row, vtblk_apply]
  simp only [e]

theorem addX_eq (c : Dev nD) (p : Fin 2) (s : Fin 4) (n : Fin 2048) : addX m c (pt p s) n = q8 (X m c) p s n := by
  unfold addX q8
  refine Finset.sum_congr rfl fun r _ => ?_
  rw [xblk_row]

theorem accY_first (c : Dev nD) (n : ℕ) (h : n < cfg0.N) (h0 : n % 4 = 0) :
    (Acc.accAt m c n h).1 (ix2 0 0) = 0 + addY m c ⟨n, h⟩ := by
  rw [Acc.accAt_first m c n h h0]
  dsimp only
  rw [Payloads.accY_apply, Payloads.reset7_apply]
  rfl

theorem accY_next (c : Dev nD) (n : ℕ) (h : n + 1 < cfg0.N) (h0 : ¬(n + 1) % 4 = 0) :
    (Acc.accAt m c (n + 1) h).1 (ix2 0 0)
      = (Acc.accAt m c n (Nat.lt_of_succ_lt h)).1 (ix2 0 0) + addY m c ⟨n + 1, h⟩ := by
  rw [Acc.accAt_next m c n h h0]
  dsimp only
  rw [Payloads.accY_apply]
  rfl

theorem accX_first (c : Dev nD) (n : ℕ) (h : n < cfg0.N) (h0 : n % 4 = 0) (f : Fin 2048) :
    (Acc.accAt m c n h).2 (ix2 0 f) = 0 + addX m c ⟨n, h⟩ f := by
  rw [Acc.accAt_first m c n h h0]
  dsimp only
  rw [Payloads.accX_apply, Payloads.reset8_apply]
  rfl

theorem accX_next (c : Dev nD) (n : ℕ) (h : n + 1 < cfg0.N) (h0 : ¬(n + 1) % 4 = 0) (f : Fin 2048) :
    (Acc.accAt m c (n + 1) h).2 (ix2 0 f)
      = (Acc.accAt m c n (Nat.lt_of_succ_lt h)).2 (ix2 0 f) + addX m c ⟨n + 1, h⟩ f := by
  rw [Acc.accAt_next m c n h h0]
  dsimp only
  rw [Payloads.accX_apply]
  rfl

theorem acc7_eq (c : Dev nD) (p : Fin 2) :
    (Acc.accAt m c (pt p 3).val (pt p 3).isLt).1 (ix2 0 0) = acc7 (X m c) (VT m c) p := by
  have hp := p.isLt
  have hN : cfg0.N = 8 := N_0
  have h3 : p.val * 4 + 2 + 1 < cfg0.N := by omega
  have h2 : p.val * 4 + 1 + 1 < cfg0.N := by omega
  have h1 : p.val * 4 + 0 + 1 < cfg0.N := by omega
  have h0 : p.val * 4 + 0 < cfg0.N := by omega
  show (Acc.accAt m c (p.val * 4 + 2 + 1) h3).1 (ix2 0 0) = _
  rw [accY_next m c (p.val * 4 + 2) h3 (by omega)]
  show (Acc.accAt m c (p.val * 4 + 1 + 1) h2).1 (ix2 0 0) + _ = _
  rw [accY_next m c (p.val * 4 + 1) h2 (by omega)]
  show (Acc.accAt m c (p.val * 4 + 0 + 1) h1).1 (ix2 0 0) + _ + _ = _
  rw [accY_next m c (p.val * 4 + 0) h1 (by omega), accY_first m c (p.val * 4 + 0) h0 (by omega)]
  unfold acc7
  rw [← addY_eq m c p 0, ← addY_eq m c p 1, ← addY_eq m c p 2, ← addY_eq m c p 3]
  rfl

theorem acc8_eq (c : Dev nD) (p : Fin 2) (f : Fin 2048) :
    (Acc.accAt m c (pt p 3).val (pt p 3).isLt).2 (ix2 0 f) = acc8 (X m c) p f := by
  have hp := p.isLt
  have hN : cfg0.N = 8 := N_0
  have h3 : p.val * 4 + 2 + 1 < cfg0.N := by omega
  have h2 : p.val * 4 + 1 + 1 < cfg0.N := by omega
  have h1 : p.val * 4 + 0 + 1 < cfg0.N := by omega
  have h0 : p.val * 4 + 0 < cfg0.N := by omega
  show (Acc.accAt m c (p.val * 4 + 2 + 1) h3).2 (ix2 0 f) = _
  rw [accX_next m c (p.val * 4 + 2) h3 (by omega)]
  show (Acc.accAt m c (p.val * 4 + 1 + 1) h2).2 (ix2 0 f) + _ = _
  rw [accX_next m c (p.val * 4 + 1) h2 (by omega)]
  show (Acc.accAt m c (p.val * 4 + 0 + 1) h1).2 (ix2 0 f) + _ + _ = _
  rw [accX_next m c (p.val * 4 + 0) h1 (by omega), accX_first m c (p.val * 4 + 0) h0 (by omega)]
  unfold acc8
  rw [← addX_eq m c p 0, ← addX_eq m c p 1, ← addX_eq m c p 2, ← addX_eq m c p 3]
  rfl

/-! ## The two arrays after the run -/

/-- The linear array and the interaction array as the specification's formulas. -/
def linArr (c : Dev nD) : S4096x1.Idx → EReal := fun i => lin (X m c) (Wt m c) ⟨(i 0).val, idx2_lt0 i⟩
def tileArr (c : Dev nD) : S16x128.Idx → EReal :=
  fun i => tile (X m c) (VT m c) ⟨(i 0).val, idx2_lt0 i⟩ ⟨(i 1).val, idx2_lt1 i⟩

/-- What point t writes back to the linear array is rows 512 t … of `linArr`. -/
theorem flushed_lin (c : Dev nD) (t : Fin cfg0.N) :
    (dats m 0 c).flushed 4 t = ((cfg0.win 4).blk t).view.read (Elt Ideal) (linArr m c) := by
  obtain ⟨-, -, -, -, -, -, -, -, e0, e1⟩ := idx_facts t
  show (cfg0.win 4).cut (grid0.coords t) ((dats m 0 c).after 4 t) = _
  rw [after0_4, Acc.lin_eq]
  funext j
  obtain ⟨r, q, rfl⟩ : ∃ (r : Fin 512) (q : Fin 1), j = ix2 r q := ⟨j 0, j 1, eq_ix2 j⟩
  obtain rfl : q = 0 := Subsingleton.elim _ _
  show k0_pay8 (Acc.xblk m c t) (Acc.wblk m c t) (ix2 r 0) = linArr m c (((cfg0.win 4).blk t).view.emb (ix2 r 0))
  rw [Payloads.lin_apply]
  unfold linArr lin
  refine Finset.sum_congr rfl fun n _ => ?_
  rw [xblk_apply m c t r n (row_lt t r), wblk_apply]
  have hi : (⟨t.val * 512 + r.val, row_lt t r⟩ : Fin 4096)
      = ⟨((((cfg0.win 4).blk t).view.emb (ix2 r 0)) 0).val, idx2_lt0 _⟩ := by
    apply Fin.ext
    show t.val * 512 + r.val = win0_4.index t (0 : Fin 2) * 512 + 1 * r.val
    rw [e0]; omega
  rw [hi]

/-- The interaction tile of the last block of half p, entry (a, b): the half's share at the corner, zero elsewhere. -/
theorem tile_val (c : Dev nD) (p : Fin 2) (a : Fin 8) (b : Fin 128) :
    k0_pay1 (k0_pay5 (Acc.vtblk m c (pt p 3))) (Acc.accAt m c (pt p 3).val (pt p 3).isLt).2
        (Acc.accAt m c (pt p 3).val (pt p 3).isLt).1 (ix2 a b)
      = part (X m c) (VT m c) p * (if a.val = 0 ∧ b.val = 0 then 1 else 0) := by
  rw [Payloads.tile_apply, Payloads.latent_id, acc7_eq]
  have e8 : ∀ n : Fin 2048, (Acc.accAt m c (pt p 3).val (pt p 3).isLt).2 (ix2 0 n)
      * ∑ k : Fin 64, Acc.vtblk m c (pt p 3) (ix2 k n) * Acc.vtblk m c (pt p 3) (ix2 k n)
      = acc8 (X m c) p n * nv (VT m c) n := fun n => by
    rw [acc8_eq]; unfold nv; simp only [vtblk_apply]
  simp only [e8]
  rfl

/-- What the last block of half p writes back to the interaction array is rows 8 p … of `tileArr`. -/
theorem flushed_tile (c : Dev nD) (t : Fin cfg0.N) (hf : (cfg0.win 3).flush t = true) :
    (dats m 0 c).flushed 3 t = ((cfg0.win 3).blk t).view.read (Elt Ideal) (tileArr m c) := by
  have h3 : t.val % 4 = 3 := (flush0_3 t).mp hf
  have hN : cfg0.N = 8 := N_0
  have ht := t.isLt
  obtain ⟨-, -, -, -, -, -, e0, e1, -⟩ := idx_facts t
  show (cfg0.win 3).cut (grid0.coords t) ((dats m 0 c).after 3 t) = _
  rw [after0_3, Acc.tile_eq m c t h3]
  funext j
  obtain ⟨a, b, rfl⟩ : ∃ (a : Fin 8) (b : Fin 128), j = ix2 a b := ⟨j 0, j 1, eq_ix2 j⟩
  show k0_pay1 (k0_pay5 (Acc.vtblk m c t)) (Acc.accAt m c t.val t.isLt).2 (Acc.accAt m c t.val t.isLt).1 (ix2 a b)
    = tileArr m c (((cfg0.win 3).blk t).view.emb (ix2 a b))
  have ha := a.isLt
  have hrow : ((((cfg0.win 3).blk t).view.emb (ix2 a b)) 0).val = t.val / 4 * 8 + a.val := by
    show win0_3.index t (0 : Fin 2) * 8 + 1 * a.val = _
    rw [e0]; omega
  have hcol : ((((cfg0.win 3).blk t).view.emb (ix2 a b)) 1).val = b.val := by
    show win0_3.index t (1 : Fin 2) * 128 + 1 * b.val = _
    rw [e1]; omega
  have hR : tileArr m c (((cfg0.win 3).blk t).view.emb (ix2 a b))
      = part (X m c) (VT m c) ⟨t.val / 4, by omega⟩ * (if a.val = 0 ∧ b.val = 0 then 1 else 0) := by
    unfold tileArr tile
    have hq : (⟨((((cfg0.win 3).blk t).view.emb (ix2 a b)) 0).val / 8, by
        have := idx2_lt0 (((cfg0.win 3).blk t).view.emb (ix2 a b)); omega⟩ : Fin 2) = ⟨t.val / 4, by omega⟩ :=
      Fin.ext (by show _ / 8 = t.val / 4; rw [hrow]; omega)
    rw [hq]
    dsimp only
    rw [hrow, hcol, show (t.val / 4 * 8 + a.val) % 8 = a.val by omega]
  rw [hR]
  obtain ⟨p, rfl⟩ : ∃ p : Fin 2, t = pt p 3 :=
    ⟨⟨t.val / 4, by omega⟩, Fin.ext (by show t.val = t.val / 4 * 4 + 3; omega)⟩
  rw [tile_val]
  congr 2
  exact Fin.ext (by show p.val = (p.val * 4 + 3) / 4; omega)

theorem mem_blk_lin (t : Fin cfg0.N) (i : S4096x1.Idx) :
    i ∈ ((cfg0.win 4).blk t).view.set ↔ ∀ a : Fin 2, win0_4.index t a * S512x1.size a ≤ (i a).val
      ∧ (i a).val < win0_4.index t a * S512x1.size a + S512x1.size a := by
  show i ∈ ((View.whole main_v5_1).slice (win0_4.rect t)).set ↔ _
  rw [View.set_slice_whole, Rect.mem_set_unit]
  exact Iff.rfl

theorem mem_blk_tile (t : Fin cfg0.N) (i : S16x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v5_0).slice (win0_3.rect t)).set ↔ _
  rw [View.set_slice_whole, Rect.mem_set_unit]
  exact Iff.rfl

/-- The linear array after the run: every row lies in the block of the point that loads it. -/
theorem final_lin (c : Dev nD) : (dats m 0 c).arrAt 4 cfg0.N = linArr m c :=
  (dats m 0 c).arrAt_eq_of_cover 4 (linArr m c) (fun t _ => flushed_lin m c t) fun i => by
    have hi0 : (i 0).val < 4096 := (i 0).isLt
    have hi1 : (i 1).val < 1 := (i 1).isLt
    have hN : cfg0.N = 8 := N_0
    obtain ⟨t, ht⟩ : ∃ t : Fin cfg0.N, t.val = (i 0).val / 512 := ⟨⟨(i 0).val / 512, by omega⟩, rfl⟩
    obtain ⟨-, -, -, -, -, -, -, -, e0, e1⟩ := idx_facts t
    refine ⟨t, flush0_4 t, ?_⟩
    rw [mem_blk_lin]
    intro a
    match a with
    | ⟨0, _⟩ =>
      show win0_4.index t (0 : Fin 2) * 512 ≤ (i 0).val ∧ (i 0).val < win0_4.index t (0 : Fin 2) * 512 + 512
      rw [e0, ht]; omega
    | ⟨1, _⟩ =>
      show win0_4.index t (1 : Fin 2) * 1 ≤ (i 1).val ∧ (i 1).val < win0_4.index t (1 : Fin 2) * 1 + 1
      rw [e1]; omega

/-- The interaction array after the run: rows 8 p … 8 p + 7 lie in the tile the last block of half p writes back. -/
theorem final_tile (c : Dev nD) : (dats m 0 c).arrAt 3 cfg0.N = tileArr m c :=
  (dats m 0 c).arrAt_eq_of_cover 3 (tileArr m c) (fun t hf => flushed_tile m c t hf) fun i => by
    have hi0 : (i 0).val < 16 := (i 0).isLt
    have hi1 : (i 1).val < 128 := (i 1).isLt
    have hN : cfg0.N = 8 := N_0
    obtain ⟨t, ht⟩ : ∃ t : Fin cfg0.N, t.val = (i 0).val / 8 * 4 + 3 := ⟨⟨(i 0).val / 8 * 4 + 3, by omega⟩, rfl⟩
    obtain ⟨-, -, -, -, -, -, e0, e1, -⟩ := idx_facts t
    refine ⟨t, (flush0_3 t).mpr (by omega), ?_⟩
    rw [mem_blk_tile]
    intro a
    match a with
    | ⟨0, _⟩ =>
      show win0_3.index t (0 : Fin 2) * 8 ≤ (i 0).val ∧ (i 0).val < win0_3.index t (0 : Fin 2) * 8 + 8
      rw [e0, ht]; omega
    | ⟨1, _⟩ =>
      show win0_3.index t (1 : Fin 2) * 128 ≤ (i 1).val ∧ (i 1).val < win0_3.index t (1 : Fin 2) * 128 + 128
      rw [e1]; omega

end Cert.KernelIdeal.Final

end
-- ==== Proof.KernelTail.lean ====
/-
  After the kernel: the program sums the 16 × 128 interaction array to a scalar, adds the bias to every row of the
  linear array, and adds the scalar to every row.
-/
import proofs.«400855_j20830591385963_3_alg».proof.Proof.Gen.KernelIdeal.Frame
import Idealize.ShloMosaic.Lib.Pipeline.Value
import Idealize.ShloMosaic.Lib.StableHlo.Run
import Idealize.ShloMosaic.Lib.ValueLayout
import Idealize.ShloMosaic.Lib.IdealHost

noncomputable section

namespace Cert.KernelIdeal.Tail

open Idealize.ShloMosaic Idealize.ShloMosaic.TcCoe Idealize.SL.Sem Idealize.ShloMosaic.ValueIdx
open Cert.KernelIdeal Cert.KernelIdeal.Gen

variable {F : FTy → Type} [FloatOps F]

/-- The operations after the kernel, as one function of the kernel's two result arrays and the bias. -/
def tail (o3 : FVec F S16x128 .f32) (o4 : FVec F S4096x1 .f32) (b : FVec F S1 .f32) : FVec F S4096x1 .f32 :=
  addf (addf o4 (broadcastInDim S4096x1 ![0, 1] Facts₀.bcast_S1x1_S4096x1_0_1 (broadcastInDim S1x1 ![1] Facts₀.bcast_S1_S1x1_1 b)))
    (broadcastInDim S4096x1 ![] Facts₀.bcast_S_S4096x1
      (Host.reduceAdd o3 (constant S_ .f32 0x00000000#32) Facts₀.reducesTo_S16x128_S_d0_1 Facts₀.h_S_))

/-- At the ideal values: row r is (linear + bias) + (0 + the sum of the interaction array). -/
theorem tail_apply (o3 : FVec Ideal S16x128 .f32) (o4 : FVec Ideal S4096x1 .f32) (b : FVec Ideal S1 .f32) (r : Fin 4096) :
    tail o3 o4 b (ix2 r 0) = (o4 (ix2 r 0) + b (ix1 0)) + (0 + ∑ i : Fin 16, ∑ j : Fin 128, o3 (ix2 i j)) := by
  unfold tail
  rw [addf_apply, addf_apply]
  -- the bias, broadcast 1 → 1 × 1 → 4096 × 1, reads its one element at every row
  have hb : broadcastInDim S4096x1 ![0, 1] Facts₀.bcast_S1x1_S4096x1_0_1
      (broadcastInDim S1x1 ![1] Facts₀.bcast_S1_S1x1_1 b) (ix2 r 0) = b (ix1 0) :=
    (broadcastInDim_apply ![0, 1] Facts₀.bcast_S1x1_S4096x1_0_1 _ (ix2 r 0) (ix2 (0 : Fin 1) (0 : Fin 1)) (fun a => by
      fin_cases a <;> rfl)).trans
    (broadcastInDim_apply ![1] Facts₀.bcast_S1_S1x1_1 b (ix2 (0 : Fin 1) (0 : Fin 1)) (ix1 (0 : Fin 1)) (fun a => by
      fin_cases a; rfl))
  -- the scalar, broadcast to every row, is the initial value 0 plus the sum over all 16 × 128 entries
  have hs : broadcastInDim S4096x1 ![] Facts₀.bcast_S_S4096x1
      (Host.reduceAdd o3 (constant (F := Ideal) S_ .f32 0x00000000#32) Facts₀.reducesTo_S16x128_S_d0_1 Facts₀.h_S_) (ix2 r 0)
      = 0 + ∑ i : Fin 16, ∑ j : Fin 128, o3 (ix2 i j) := by
    refine (broadcastInDim_scalar_apply Facts₀.bcast_S_S4096x1 _ (ix2 r 0)).trans ?_
    refine (hostReduceAdd_apply o3 _ Facts₀.reducesTo_S16x128_S_d0_1 Facts₀.h_S_ ix0).trans ?_
    refine (Ideal.hostReduceAdd_total Facts₀.reducesTo_S16x128_S_d0_1 (fun b => b.elim0) o3 _ ix0).trans ?_
    rw [constant_apply, Ideal.ofBits_zero_f32, sum_idx2]
  rw [hb, hs]

variable (m : (ℓ : Loc nD τ sig) → Buf (Elt F) ℓ) (ρ : Dev nD → PrngReg)

/-- What the operations after the kernel leave in the result buffer: the tail of the kernel's two result arrays as the
    region leaves them, and the bias as launched (no operation before or after the kernel writes it). -/
theorem afterTail_v11 (c : Dev nD) :
    Pipeline.afterTail₀ cfgs (dats m) 0 (V0 m) [hostOps1] c main_v11
      = tail ((dats m 0 c).arrAt 3 cfg0.N) ((dats m 0 c).arrAt 4 cfg0.N) (m ((c : Thread nD τ).loc main_arg2)) := by
  unfold Pipeline.afterTail₀
  show StableHlo.after hostOps1 _ (Proc.devRef .tc main_v11) = _
  after_results
  -- the two result arrays are windows 3 and 4 of the region; the bias is no window's array
  have e3 : Pipeline.withArrays (cfgs 0).spec c (V0 m c) (fun w => (dats m 0 c).arrAt w (cfgs 0).N) (Proc.devRef .tc main_v5_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v5_1)
      = (dats m 0 c).arrAt 4 cfg0.N := Pipeline.withArrays_arr spec0 launch0.win.arr_inj c _ _ 4
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e3, e4, e2]
  rfl

/-- The whole run: the result is the tail of the two arrays the kernel leaves, and the arguments are unchanged. -/
theorem run : θ_run defs (onTc (τ := τ) (main (F := F))) ⟨m, fun _ => 0, ρ⟩ fun r => ∀ c : Dev nD,
      r.2.mem ((c : Thread nD τ).loc main_v11)
        = tail ((dats m 0 c).arrAt 3 cfg0.N) ((dats m 0 c).arrAt 4 cfg0.N) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  -- the result buffer and the arguments 2, 3, 4 bypass the region: each ends as the operations after it leave it; the
  -- arguments 0 and 1 are input arrays of the region (windows 0 and 2), which end at their entry contents
  (θ_run defs _ _).mono (fun _ h c =>
    ⟨((h c).2 main_v11 (Pipeline.mem_restRefs_of main_v11 (by decide) (by decide))).trans (afterTail_v11 m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.Tail

end
-- ==== Proof.KernelValue.lean ====
/-
  The kernel program's result, row by row: the linear term plus the bias plus the sum of the interaction tiles, the
  kernel's formula of the specification.
-/
import proofs.«400855_j20830591385963_3_alg».proof.Proof.KernelFinal
import proofs.«400855_j20830591385963_3_alg».proof.Proof.KernelTail

noncomputable section

open Idealize.ShloMosaic Idealize.ShloMosaic.TcCoe Idealize.SL.Sem Idealize.ShloMosaic.ValueIdx

namespace Cert.KernelIdeal.Result

open Cert.KernelIdeal Cert.KernelIdeal.Gen Cert.Interaction

variable (m : (ℓ : Loc nD τ sig) → Buf (Elt Ideal) ℓ) (ρ : Dev nD → PrngReg)

/-- The run: the result array is the program's closing operations applied to the two arrays the kernel leaves,
    which are the specification's linear array and interaction tiles; the arguments are unchanged. -/
theorem run : θ_run defs (onTc (τ := τ) (main (F := Ideal))) ⟨m, fun _ => 0, ρ⟩ fun r => ∀ c : Dev nD,
      r.2.mem ((c : Thread nD τ).loc main_v11)
        = Tail.tail (F := Ideal) (Final.tileArr m c) (Final.linArr m c) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨by rw [(h c).1, Final.final_tile, Final.final_lin], (h c).2⟩) (Tail.run m ρ)

/-- Row r of the result is the kernel's formula. -/
theorem result_apply (c : Dev nD) (r : Fin 4096) :
    Tail.tail (F := Ideal) (Final.tileArr m c) (Final.linArr m c) (m ((c : Thread nD τ).loc main_arg2)) (ix2 r 0)
      = resultK (Final.X m c) (Final.Wt m c) ((m ((c : Thread nD τ).loc main_arg2) : S1.Idx → EReal) (ix1 0))
          (Final.VT m c) r := by
  rw [Tail.tail_apply]
  rfl

end Cert.KernelIdeal.Result

end
-- ==== Proof.lean ====
/-
  The certificate: a field-aware pairwise-interaction layer computed by one pass over the batch.

  Both programs return, in row r, (∑ₙ X r n · W n + b) + I with I = ∑_{i<j} ⟨V i, V j⟩ ⟨X·i, X·j⟩, where V i is feature i's
  latent vector for its own field.  The reference forms the two Gram matrices and sums their product over the strict
  upper triangle.  The kernel never forms them: per half of the batch it accumulates ‖X V‖² and the squared column
  norms of X over four row blocks, and closes with ½ (‖X V‖² − ∑ₙ ‖X·ₙ‖² ‖Vₙ‖²); the two halves' shares are summed.

  The precondition asks that every float input be finite and that every field index lie in −64 … 63, the range in
  which the reference's own indexing (a negative index counting from the end) stays inside the 64 fields.  Finiteness
  is what lets the sums be rearranged (the extended reals do not distribute at the infinities); the index range is
  what makes the two programs read the same latent vectors.

  The three frames are the generated ones (the reference's is its run with the result dropped); the idealization
  rewrote nothing; the algebraic claim joins the kernel's run, read point by point through its accumulators, with
  the reference's run read operation by operation, by the identity above over the reals.
-/
import proofs.«400855_j20830591385963_3_alg».proof.Defs
import proofs.«400855_j20830591385963_3_alg».proof.Proof.Gen.Kernel
import proofs.«400855_j20830591385963_3_alg».proof.Proof.Gen.Kernel.Frame
import proofs.«400855_j20830591385963_3_alg».proof.Proof.Gen.KernelIdeal
import proofs.«400855_j20830591385963_3_alg».proof.Proof.Gen.KernelIdeal.Frame
import proofs.«400855_j20830591385963_3_alg».proof.Proof.Gen.ReferenceIdeal
import proofs.«400855_j20830591385963_3_alg».proof.Proof.Gen.Pre_finite_inputs
import proofs.«400855_j20830591385963_3_alg».proof.Proof.Gen.ReferenceIdeal.Run
import proofs.«400855_j20830591385963_3_alg».proof.Proof.Gen.ReferenceIdeal.Read
import proofs.«400855_j20830591385963_3_alg».proof.Proof.Algebra
import proofs.«400855_j20830591385963_3_alg».proof.Proof.PreDecode
import proofs.«400855_j20830591385963_3_alg».proof.Proof.RefValue
import proofs.«400855_j20830591385963_3_alg».proof.Proof.KernelLatent
import proofs.«400855_j20830591385963_3_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Row by row the kernel's result is its formula and the reference's is its own; on finite inputs with field
    indices in range the two formulas agree. -/
theorem algebraic : Cert.algebraic_KernelIdeal_ReferenceIdeal := by
  intro m ρ m' ρ' hpre hagree
  refine ⟨fun c => Cert.KernelIdeal.Tail.tail (F := Ideal) (Cert.KernelIdeal.Final.tileArr m c) (Cert.KernelIdeal.Final.linArr m c)
    (m ((c : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v30_eq]
  obtain ⟨hX, hV, hF⟩ := Cert.Interaction.of_pre _ _ _ _ _ (hpre c)
  funext i
  obtain ⟨r, q, rfl⟩ : ∃ (r : Fin 4096) (q : Fin 1), i = ix2 r q := ⟨i 0, i 1, eq_ix2 i⟩
  obtain rfl : q = 0 := Subsingleton.elim _ _
  have hVT : Cert.KernelIdeal.Final.VT m c = Cert.Interaction.latent
      (m ((c : Thread Cert.KernelIdeal.nD Cert.KernelIdeal.τ).loc Cert.KernelIdeal.main_arg3))
      (m ((c : Thread Cert.KernelIdeal.nD Cert.KernelIdeal.τ).loc Cert.KernelIdeal.main_arg4)) :=
    funext fun k => funext fun n => Cert.KernelIdeal.Latent.vt_apply m c (fun n => hF (ix1 n)) k n
  rw [Cert.ReferenceIdeal.RefValue.result_apply _ _ _ _ _ (fun n => hF (ix1 n)) r]
  show _ = Cert.KernelIdeal.Tail.tail (F := Ideal) (Cert.KernelIdeal.Final.tileArr m c) (Cert.KernelIdeal.Final.linArr m c)
    (m ((c : Thread Cert.KernelIdeal.nD Cert.KernelIdeal.τ).loc Cert.KernelIdeal.main_arg2)) (ix2 r 0)
  rw [Cert.KernelIdeal.Result.result_apply m c r, hVT]
  exact (Cert.Interaction.resultK_eq_resultR _ _ _ _ (fun a n => hX (ix2 a n)) (fun k n => hV _) r).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
